-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64 : Shape := ⟨1, ![64]⟩
abbrev S64x64 : Shape := ⟨2, ![64, 64]⟩
abbrev S1600000x64 : Shape := ⟨2, ![1600000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1600000x64 : S_.BroadcastsInDim S1600000x64 (![] : Fin 0 → Fin S1600000x64.rank)
  reducesTo_S1600000x64_S_d0_1 : S1600000x64.ReducesTo [0, 1] S_

variable [Facts]

def fn_part3 {F : FTy → Type} [FloatOps F] (main_v48 : IVec S_ 1) (main_v49 : FVec F S1600000x64 .f32) (main_v50 : FVec F S1600000x64 .f32) : IVec S_ 1 :=
  let main_v51 : IVec S1600000x64 1 := cmpf .olt main_v49 main_v50
  let main_c_19 : IVec S_ 1 := constantI S_ 1 1#1
  let main_v52 : IVec S_ 1 := (fun x v => Host.reduce IntOp.andi x v reducesTo_S1600000x64_S_d0_1 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S1600000x64 .f32) (main_arg12 : FVec F S1600000x64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1600000x64 .f32 := Host.absf main_arg11
  let main_cst_16 : FVec F S_ .f32 := constant S_ .f32 0x7F800000#32
  let main_v45 : FVec F S1600000x64 .f32 := broadcastInDim S1600000x64 ![] bcast_S_S1600000x64 main_cst_16
  let main_v46 : IVec S1600000x64 1 := cmpf .olt main_v44 main_v45
  let main_c_17 : IVec S_ 1 := constantI S_ 1 1#1
  let main_v47 : IVec S_ 1 := (fun x v => Host.reduce IntOp.andi x v reducesTo_S1600000x64_S_d0_1 h_S_) main_v46 main_c_17
  let main_v48 : IVec S_ 1 := andi main_v43 main_v47
  let main_v49 : FVec F S1600000x64 .f32 := Host.absf main_arg12
  let main_cst_18 : FVec F S_ .f32 := constant S_ .f32 0x7F800000#32
  let main_v50 : FVec F S1600000x64 .f32 := broadcastInDim S1600000x64 ![] bcast_S_S1600000x64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S1600000x64 .f32) (main_arg12 : FVec F S1600000x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S1600000 32) (main_arg2 : IVec S1600000 32) (main_arg3 : FVec F S64 .f32) (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S1600000x64 .f32) (main_arg12 : FVec F S1600000x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S1600000 : Shape := ⟨1, ![1600000]⟩
abbrev S64 : Shape := ⟨1, ![64]⟩
abbrev S64x64 : Shape := ⟨2, ![64, 64]⟩
abbrev S1600000x64 : Shape := ⟨2, ![1600000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S16000x64 : Shape := ⟨2, ![16000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 91
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1600000x64, .f32⟩
  | .hbm, ⟨12, _⟩ => ⟨S1600000x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1x64, .f32⟩
  | .hbm, ⟨59, _⟩ => ⟨S1x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1x64, .f32⟩
  | .hbm, ⟨81, _⟩ => ⟨S1x64, .f32⟩
  | .hbm, ⟨82, _⟩ => ⟨S1600000x64, .f32⟩
  | .hbm, ⟨83, _⟩ => ⟨S_, .f32⟩
  | .hbm, ⟨84, _⟩ => ⟨S100000x64, .f32⟩
  | .hbm, ⟨85, _⟩ => ⟨S1600000x1, .i32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S1x64, .f32⟩
  | .local _ .vmem, ⟨5, _⟩ => ⟨S1x64, .f32⟩
  | .local _ .vmem, ⟨6, _⟩ => ⟨S16000x64, .f32⟩
  | .local _ .vmem, ⟨7, _⟩ => ⟨S16000x64, .f32⟩
  | .local _ .vmem, ⟨8, _⟩ => ⟨S2000x64, .f32⟩
  | .local _ .vmem, ⟨9, _⟩ => ⟨S2000x64, .f32⟩
  | .local _ .vmem, ⟨10, _⟩ => ⟨S64x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S16000x64, .f32⟩
  | .local _ .vmem, ⟨15, _⟩ => ⟨S16000x64, .f32⟩
  | .local _ .vmem, ⟨16, _⟩ => ⟨S16000x64, .f32⟩
  | .local _ .vmem, ⟨17, _⟩ => ⟨S16000x64, .f32⟩
  | .local _ .vmem, ⟨18, _⟩ => ⟨S1x64, .f32⟩
  | .local _ .vmem, ⟨19, _⟩ => ⟨S1x64, .f32⟩
  | .local _ .vmem, ⟨20, _⟩ => ⟨S16000x64, .f32⟩
  | .local _ .vmem, ⟨21, _⟩ => ⟨S16000x64, .f32⟩
  | .local _ .vmem, ⟨22, _⟩ => ⟨S2000x64, .f32⟩
  | .local _ .vmem, ⟨23, _⟩ => ⟨S2000x64, .f32⟩
  | .local _ .vmem, ⟨24, _⟩ => ⟨S64x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_cst_6 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S16000x64_S16000x64_0_0 : ∀ a, (![0, 0] : Fin 2 → Nat) a + S16000x64.size a ≤ S16000x64.size a
  h_S16000x64 : 0 < S16000x64.numel
  broadcasts_S1x64_S16000x64 : S1x64.Broadcasts S16000x64
  shapeCasts_S16000x64_S16000x64 : S16000x64.ShapeCasts S16000x64
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1600000x64.size a
  hwx0_1 : ∀ i : grid0.Coords, EltTy.bits .f32 = 32 ∨ (Rect.block (s := S1600000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x64.size a ≤ S1600000x64.size a
  hwx0_4 : ∀ i : grid0.Coords, EltTy.bits .f32 = 32 ∨ (Rect.block (s := S1600000x64) S16000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S1600000x64.size a
  hwx2_0 : ∀ i : grid2.Coords, EltTy.bits .f32 = 32 ∨ (Rect.block (s := S1600000x64) S16000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x64.size a ≤ S1600000x64.size a
  hwx2_1 : ∀ i : grid2.Coords, EltTy.bits .f32 = 32 ∨ (Rect.block (s := S1600000x64) S16000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16000x64.size a ≤ S1600000x64.size a
  hwx2_4 : ∀ i : grid2.Coords, EltTy.bits .f32 = 32 ∨ (Rect.block (s := S1600000x64) S16000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v29) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S16000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S16000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S16000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v56) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64 : Shape := ⟨1, ![64]⟩
abbrev S64x64 : Shape := ⟨2, ![64, 64]⟩
abbrev S1600000x64 : Shape := ⟨2, ![1600000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1600000x64, .f32⟩
  | .hbm, ⟨12, _⟩ => ⟨S1600000x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S64, .f32⟩
  | .hbm, ⟨48, _⟩ => ⟨S1x64, .f32⟩
  | .hbm, ⟨49, _⟩ => ⟨S1600000x64, .f32⟩
  | .hbm, ⟨50, _⟩ => ⟨S1600000x64, .f32⟩
  | .hbm, ⟨51, _⟩ => ⟨S1x64, .f32⟩
  | .hbm, ⟨52, _⟩ => ⟨S1600000x64, .f32⟩
  | .hbm, ⟨53, _⟩ => ⟨S1600000x64, .f32⟩
  | .hbm, ⟨54, _⟩ => ⟨S64, .f32⟩
  | .hbm, ⟨55, _⟩ => ⟨S1x64, .f32⟩
  | .hbm, ⟨56, _⟩ => ⟨S1600000x64, .f32⟩
  | .hbm, ⟨57, _⟩ => ⟨S1600000x64, .f32⟩
  | .hbm, ⟨58, _⟩ => ⟨S1x64, .f32⟩
  | .hbm, ⟨59, _⟩ => ⟨S1600000x64, .f32⟩
  | .hbm, ⟨60, _⟩ => ⟨S1600000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x64, .f32⟩
  | .hbm, ⟨121, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_cst_6 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Fold5.lean ====
/-
  The kernel program's buffers when its first kernel region is entered, as functions of the launch arrays, at any
  float family.
  Before that region the program runs the same host operations as the reference, on the same arrays: the two degree
  counts and their normalisers (norm_out as a column from the sources, norm_in as a column from the destinations), the
  normalised features gathered along the sources, and the layer's mean and log-deviation vectors each recast as one row.
  No host operation writes an argument array, so each argument is still what was launched.
-/
import proofs.«166050_j65000035058538_1_alg».proof.Proof.Gen.KernelIdeal.Frame
import proofs.«166050_j65000035058538_1_alg».proof.Proof.RefRead
import Idealize.ShloMosaic.Lib.StableHlo.Run

noncomputable section

namespace Cert.KernelIdeal.Fold

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg) (c : Dev nD)

/-! ## The launch arrays -/

/-- The node features. -/
abbrev a0 := m ((c : Thread nD τ).loc main_arg0)
/-- The edges' sources. -/
abbrev a1 := m ((c : Thread nD τ).loc main_arg1)
/-- The edges' destinations. -/
abbrev a2 := m ((c : Thread nD τ).loc main_arg2)
/-- The first layer's mean vector. -/
abbrev a3 := m ((c : Thread nD τ).loc main_arg3)
/-- The first layer's log-deviation vector. -/
abbrev a4 := m ((c : Thread nD τ).loc main_arg4)
/-- The second layer's mean vector. -/
abbrev a5 := m ((c : Thread nD τ).loc main_arg5)
/-- The second layer's log-deviation vector. -/
abbrev a6 := m ((c : Thread nD τ).loc main_arg6)
/-- The first weight matrix. -/
abbrev a7 := m ((c : Thread nD τ).loc main_arg7)
/-- The first bias vector. -/
abbrev a8 := m ((c : Thread nD τ).loc main_arg8)
/-- The second weight matrix. -/
abbrev a9 := m ((c : Thread nD τ).loc main_arg9)
/-- The second bias vector. -/
abbrev a10 := m ((c : Thread nD τ).loc main_arg10)
/-- The first layer's noise. -/
abbrev a11 := m ((c : Thread nD τ).loc main_arg11)
/-- The second layer's noise. -/
abbrev a12 := m ((c : Thread nD τ).loc main_arg12)

/-! ## What the first region finds -/

/-- The gathered, normalised source features are the reference's. -/
theorem w5_v29 : W5 m ρ c (Proc.devRef .tc main_v29)
    = Cert.ReferenceIdeal.ReadP.val_main_v43 (F := F) (a0 m c) (a1 m c) := by
  simp only [W5, W4, W3, W2, W1, hostOps0_4, hostOps0_3, hostOps0_2, hostOps0_1, hostOps0]
  after_results_simp
  rfl

/-- The mean vector recast as one row. -/
theorem w5_v30 : W5 m ρ c (Proc.devRef .tc main_v30) = shapeCast S1x64 (a3 m c) shapeCasts_S64_S1x64 := by
  simp only [W5, W4, W3, W2, W1, hostOps0_4, hostOps0_3, hostOps0_2, hostOps0_1, hostOps0]
  after_results
  funext i; rfl

/-- The log-deviation vector recast as one row. -/
theorem w5_v31 : W5 m ρ c (Proc.devRef .tc main_v31) = shapeCast S1x64 (a4 m c) shapeCasts_S64_S1x64 := by
  simp only [W5, W4, W3, W2, W1, hostOps0_4, hostOps0_3, hostOps0_2, hostOps0_1, hostOps0]
  after_results
  funext i; rfl

/-- The column of inverse square roots of the in-degrees is the reference's. -/
theorem w5_v20 : W5 m ρ c (Proc.devRef .tc main_v20) = Cert.ReferenceIdeal.ReadP.val_main_v20 (F := F) (a2 m c) := by
  simp only [W5, W4, W3, W2, W1, hostOps0_4, hostOps0_3, hostOps0_2, hostOps0_1, hostOps0]
  after_results_simp
  rfl

/-- The column of inverse square roots of the out-degrees is the reference's. -/
theorem w5_v13 : W5 m ρ c (Proc.devRef .tc main_v13) = Cert.ReferenceIdeal.ReadP.val_main_v13 (F := F) (a1 m c) := by
  simp only [W5, W4, W3, W2, W1, hostOps0_4, hostOps0_3, hostOps0_2, hostOps0_1, hostOps0]
  after_results_simp
  rfl

/-! The arguments read later are as launched: no operation before the first region writes one. -/

theorem w5_arg1 : W5 m ρ c (Proc.devRef .tc main_arg1) = a1 m c := by
  simp only [W5, W4, W3, W2, W1, hostOps0_4, hostOps0_3, hostOps0_2, hostOps0_1, hostOps0]
  after_results_simp
theorem w5_arg2 : W5 m ρ c (Proc.devRef .tc main_arg2) = a2 m c := by
  simp only [W5, W4, W3, W2, W1, hostOps0_4, hostOps0_3, hostOps0_2, hostOps0_1, hostOps0]
  after_results_simp
theorem w5_arg5 : W5 m ρ c (Proc.devRef .tc main_arg5) = a5 m c := by
  simp only [W5, W4, W3, W2, W1, hostOps0_4, hostOps0_3, hostOps0_2, hostOps0_1, hostOps0]
  after_results_simp
theorem w5_arg6 : W5 m ρ c (Proc.devRef .tc main_arg6) = a6 m c := by
  simp only [W5, W4, W3, W2, W1, hostOps0_4, hostOps0_3, hostOps0_2, hostOps0_1, hostOps0]
  after_results_simp
theorem w5_arg7 : W5 m ρ c (Proc.devRef .tc main_arg7) = a7 m c := by
  simp only [W5, W4, W3, W2, W1, hostOps0_4, hostOps0_3, hostOps0_2, hostOps0_1, hostOps0]
  after_results_simp
theorem w5_arg8 : W5 m ρ c (Proc.devRef .tc main_arg8) = a8 m c := by
  simp only [W5, W4, W3, W2, W1, hostOps0_4, hostOps0_3, hostOps0_2, hostOps0_1, hostOps0]
  after_results_simp
theorem w5_arg9 : W5 m ρ c (Proc.devRef .tc main_arg9) = a9 m c := by
  simp only [W5, W4, W3, W2, W1, hostOps0_4, hostOps0_3, hostOps0_2, hostOps0_1, hostOps0]
  after_results_simp
theorem w5_arg10 : W5 m ρ c (Proc.devRef .tc main_arg10) = a10 m c := by
  simp only [W5, W4, W3, W2, W1, hostOps0_4, hostOps0_3, hostOps0_2, hostOps0_1, hostOps0]
  after_results_simp
theorem w5_arg11 : W5 m ρ c (Proc.devRef .tc main_arg11) = a11 m c := by
  simp only [W5, W4, W3, W2, W1, hostOps0_4, hostOps0_3, hostOps0_2, hostOps0_1, hostOps0]
  after_results_simp
theorem w5_arg12 : W5 m ρ c (Proc.devRef .tc main_arg12) = a12 m c := by
  simp only [W5, W4, W3, W2, W1, hostOps0_4, hostOps0_3, hostOps0_2, hostOps0_1, hostOps0]
  after_results_simp

end Cert.KernelIdeal.Fold

end
-- ==== Proof.Spec.lean ====
/-
  The mathematics of the two kernels, entry by entry, over the extended reals.

  An edge's message: the gathered source feature times the sampled weight, the weight being the mean plus the
  exponential of the log-deviation times the noise; mean and log-deviation are one row laid along every edge.
  A node's dense layer: a row of the aggregated features contracted with the weight matrix, plus the bias row;
  then either the positive part, or the softmax of the row (the exponential of the entry less the row's largest
  entry, over the sum of those exponentials along the row).
  Every one of these reads only ONE row of its big operand, which is what lets a block of rows stand for the
  same rows of the whole array.
-/
import Idealize.ShloMosaic.PureOps.Ideal.Laws
import Idealize.ShloMosaic.Lib.ValueIdx

noncomputable section

namespace Cert.Spec

open Idealize.ShloMosaic Idealize.ShloMosaic.ValueIdx

/-- A function of a row and a column as an array indexed by pairs. -/
def whole {R C : ℕ} (g : Fin R → Fin C → EReal) : (⟨2, ![R, C]⟩ : Shape).Idx → EReal :=
  fun i => g ⟨(i 0).val, (i 0).isLt⟩ ⟨(i 1).val, (i 1).isLt⟩

theorem whole_ix2 {R C : ℕ} (g : Fin R → Fin C → EReal) (r : Fin R) (q : Fin C) : whole g (ix2 r q) = g r q := rfl

theorem whole_apply {R C : ℕ} (g : Fin R → Fin C → EReal) (i : (⟨2, ![R, C]⟩ : Shape).Idx) :
    whole g i = g ⟨(i 0).val, (i 0).isLt⟩ ⟨(i 1).val, (i 1).isLt⟩ := rfl

/-- A vector of 64 entries as the one row of a 1 × 64 array. -/
def rowOf (v : (⟨1, ![64]⟩ : Shape).Idx → EReal) : (⟨2, ![1, 64]⟩ : Shape).Idx → EReal :=
  fun i => v (ix1 ⟨(i 1).val, (i 1).isLt⟩)

theorem rowOf_ix2 (v : (⟨1, ![64]⟩ : Shape).Idx → EReal) (u : Fin 1) (q : Fin 64) : rowOf v (ix2 u q) = v (ix1 q) := rfl

/-- The message of edge `r` in feature `q`: source feature times (mean + exp(log-deviation) · noise). -/
def edgeAt {R : ℕ} (h e : (⟨2, ![R, 64]⟩ : Shape).Idx → EReal) (mu ls : (⟨2, ![1, 64]⟩ : Shape).Idx → EReal)
    (r : Fin R) (q : Fin 64) : EReal :=
  h (ix2 r q) * (mu (ix2 0 q) + Ideal.exp (ls (ix2 0 q)) * e (ix2 r q))

/-- Row `r` of `x` contracted with column `q` of `w`, plus the bias at `q`. -/
def lin {R : ℕ} (x : (⟨2, ![R, 64]⟩ : Shape).Idx → EReal) (w : (⟨2, ![64, 64]⟩ : Shape).Idx → EReal)
    (b : (⟨2, ![1, 64]⟩ : Shape).Idx → EReal) (r : Fin R) (q : Fin 64) : EReal :=
  (∑ k : Fin 64, x (ix2 r k) * w (ix2 k q)) + b (ix2 0 q)

/-- The positive part of the dense layer's entry. -/
def reluAt {R : ℕ} (x : (⟨2, ![R, 64]⟩ : Shape).Idx → EReal) (w : (⟨2, ![64, 64]⟩ : Shape).Idx → EReal)
    (b : (⟨2, ![1, 64]⟩ : Shape).Idx → EReal) (r : Fin R) (q : Fin 64) : EReal :=
  max (lin x w b r q) 0

/-- The largest entry of the dense layer's row `r` (the fold of max from −∞ over the 64 columns). -/
def rowMax {R : ℕ} (x : (⟨2, ![R, 64]⟩ : Shape).Idx → EReal) (w : (⟨2, ![64, 64]⟩ : Shape).Idx → EReal)
    (b : (⟨2, ![1, 64]⟩ : Shape).Idx → EReal) (r : Fin R) : EReal :=
  (Finset.univ : Finset (Fin 64)).fold max ⊥ (fun q => lin x w b r q)

/-- The shifted exponential: exp of the entry less its row's largest. -/
def expAt {R : ℕ} (x : (⟨2, ![R, 64]⟩ : Shape).Idx → EReal) (w : (⟨2, ![64, 64]⟩ : Shape).Idx → EReal)
    (b : (⟨2, ![1, 64]⟩ : Shape).Idx → EReal) (r : Fin R) (q : Fin 64) : EReal :=
  Ideal.exp (lin x w b r q - rowMax x w b r)

/-- The softmax of the dense layer's row `r`, at column `q`. -/
def smAt {R : ℕ} (x : (⟨2, ![R, 64]⟩ : Shape).Idx → EReal) (w : (⟨2, ![64, 64]⟩ : Shape).Idx → EReal)
    (b : (⟨2, ![1, 64]⟩ : Shape).Idx → EReal) (r : Fin R) (q : Fin 64) : EReal :=
  Ideal.div (expAt x w b r q) (∑ j : Fin 64, expAt x w b r j)

/-! ## Each entry reads one row -/

section Rows

variable {R R' : ℕ} {x : (⟨2, ![R, 64]⟩ : Shape).Idx → EReal} {x' : (⟨2, ![R', 64]⟩ : Shape).Idx → EReal}
  (w : (⟨2, ![64, 64]⟩ : Shape).Idx → EReal) (b : (⟨2, ![1, 64]⟩ : Shape).Idx → EReal) {r : Fin R} {r' : Fin R'}

theorem edgeAt_congr {h e : (⟨2, ![R, 64]⟩ : Shape).Idx → EReal} {h' e' : (⟨2, ![R', 64]⟩ : Shape).Idx → EReal}
    (mu ls : (⟨2, ![1, 64]⟩ : Shape).Idx → EReal) (q : Fin 64)
    (hh : h (ix2 r q) = h' (ix2 r' q)) (he : e (ix2 r q) = e' (ix2 r' q)) :
    edgeAt h e mu ls r q = edgeAt h' e' mu ls r' q := by
  unfold edgeAt; rw [hh, he]

theorem lin_congr (hx : ∀ k : Fin 64, x (ix2 r k) = x' (ix2 r' k)) (q : Fin 64) : lin x w b r q = lin x' w b r' q := by
  unfold lin; exact congrArg (· + b (ix2 0 q)) (Finset.sum_congr rfl fun k _ => by rw [hx k])

theorem reluAt_congr (hx : ∀ k : Fin 64, x (ix2 r k) = x' (ix2 r' k)) (q : Fin 64) : reluAt x w b r q = reluAt x' w b r' q := by
  unfold reluAt; rw [lin_congr w b hx q]

theorem rowMax_congr (hx : ∀ k : Fin 64, x (ix2 r k) = x' (ix2 r' k)) : rowMax x w b r = rowMax x' w b r' := by
  unfold rowMax; rw [show (fun q => lin x w b r q) = fun q => lin x' w b r' q from funext fun q => lin_congr w b hx q]

theorem expAt_congr (hx : ∀ k : Fin 64, x (ix2 r k) = x' (ix2 r' k)) (q : Fin 64) : expAt x w b r q = expAt x' w b r' q := by
  unfold expAt; rw [lin_congr w b hx q, rowMax_congr w b hx]

theorem smAt_congr (hx : ∀ k : Fin 64, x (ix2 r k) = x' (ix2 r' k)) (q : Fin 64) : smAt x w b r q = smAt x' w b r' q := by
  unfold smAt; rw [expAt_congr w b hx q]; exact congrArg _ (Finset.sum_congr rfl fun j _ => expAt_congr w b hx j)

end Rows

end Cert.Spec

end
-- ==== Proof.PayEdge.lean ====
/-
  The edge kernel's stored value, entry by entry: the loaded block of gathered source features times
  (mean row + exp(log-deviation row) · noise block). Both launches of the edge kernel store the same expression.
-/
import proofs.«166050_j65000035058538_1_alg».proof.Proof.Gen.KernelIdeal.Skeleton
import proofs.«166050_j65000035058538_1_alg».proof.Proof.Spec
import Idealize.ShloMosaic.Lib.Pipeline.Value
import Idealize.ShloMosaic.Lib.ValueLayout

noncomputable section

namespace Cert.KernelIdeal.Pay

open Cert.KernelIdeal Cert.KernelIdeal.Gen Cert.Spec Idealize.ShloMosaic Idealize.ShloMosaic.ValueIdx

/-- The stored expression at row `p`, column `q`, with the casts of a shape to itself dropped and the two
    one-row operands read at row 0: the source feature times (mean + exp(log-deviation) · noise). -/
theorem edge_entry (mu ls : (⟨2, ![1, 64]⟩ : Shape).Idx → EReal) (e h : (⟨2, ![16000, 64]⟩ : Shape).Idx → EReal)
    (hc1 : (⟨2, ![1, 64]⟩ : Shape).ShapeCasts ⟨2, ![1, 64]⟩)
    (hcR : (⟨2, ![16000, 64]⟩ : Shape).ShapeCasts ⟨2, ![16000, 64]⟩)
    (hb : (⟨2, ![1, 64]⟩ : Shape).Broadcasts ⟨2, ![16000, 64]⟩) (p : Fin 16000) (q : Fin 64) :
    shapeCast ⟨2, ![16000, 64]⟩ h hcR (ix2 p q)
        * (broadcastTo ⟨2, ![16000, 64]⟩ (shapeCast ⟨2, ![1, 64]⟩ mu hc1) hb (ix2 p q)
            + broadcastTo ⟨2, ![16000, 64]⟩ (fun i => Ideal.exp (shapeCast ⟨2, ![1, 64]⟩ ls hc1 i)) hb (ix2 p q) * e (ix2 p q))
      = edgeAt (R := 16000) h e mu ls p q := by
  rw [shapeCast_self, shapeCast_self, shapeCast_self, broadcastTo_1b_ab_apply, broadcastTo_1b_ab_apply]
  rfl

theorem k0_pay1_eq (v0 v2 : Vec Ideal S1x64 .f32) (v5 v10 : Vec Ideal S16000x64 .f32) :
    k0_pay1 (F := Ideal) v0 v2 v5 v10 = whole (edgeAt (R := 16000) v10 v5 v0 v2) := by
  funext j
  obtain ⟨p, q, rfl⟩ : ∃ (p : Fin 16000) (q : Fin 64), j = ix2 p q := ⟨j 0, j 1, eq_ix2 j⟩
  rw [whole_ix2]
  exact edge_entry v0 v2 v5 v10 _ _ _ p q

theorem k2_pay1_eq (v0 v2 : Vec Ideal S1x64 .f32) (v5 v10 : Vec Ideal S16000x64 .f32) :
    k2_pay1 (F := Ideal) v0 v2 v5 v10 = whole (edgeAt (R := 16000) v10 v5 v0 v2) := by
  funext j
  obtain ⟨p, q, rfl⟩ : ∃ (p : Fin 16000) (q : Fin 64), j = ix2 p q := ⟨j 0, j 1, eq_ix2 j⟩
  rw [whole_ix2]
  exact edge_entry v0 v2 v5 v10 _ _ _ p q

end Cert.KernelIdeal.Pay

end
-- ==== Proof.Region0.lean ====
/-
  The first edge launch, as one array: 100 grid points, point t carrying rows 16000·t … 16000·t + 15999 of the gathered features and of the noise, the mean and log-deviation rows the same at every point. What point t writes back is rows 16000·t … of the message array, and the 100 blocks tile its 1 600 000 rows.
-/
import proofs.«166050_j65000035058538_1_alg».proof.Proof.Gen.KernelIdeal.Frame
import proofs.«166050_j65000035058538_1_alg».proof.Proof.PayEdge
import Idealize.ShloMosaic.Lib.Pipeline.Value

noncomputable section

namespace Cert.KernelIdeal.Regions

open Cert.KernelIdeal Cert.KernelIdeal.Gen Cert.KernelIdeal.Pay Cert.Spec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A rectangle that starts at the origin has the zero offset on every axis. -/
theorem origin0 : (![0, 0] : Fin 2 → Nat) = fun _ => 0 := funext fun a => by fin_cases a <;> rfl

/-- Where each window's block sits at grid point `t`: the three big windows at block row `t`, column block 0; the two
    one-row windows at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The message computed from a block of 16000 rows is the message of the whole arrays at the rows the block stands for:
    if the block's row `p` is the arrays' row `n · 16000 + p` (for the features and for the noise) and the one-row operands
    agree, then entry `y` of the block's messages is entry `i` of the arrays' messages, `i` being `y` moved down by
    `n · 16000` rows. -/
theorem edge_block_entry (H E : (⟨2, ![1600000, 64]⟩ : Shape).Idx → EReal) (MU LS : (⟨2, ![1, 64]⟩ : Shape).Idx → EReal)
    (h e : (⟨2, ![16000, 64]⟩ : Shape).Idx → EReal) (mu ls : (⟨2, ![1, 64]⟩ : Shape).Idx → EReal) (n : ℕ)
    (hh : ∀ (p : Fin 16000) (q : Fin 64) (r : Fin 1600000), r.val = n * 16000 + p.val → h (ix2 p q) = H (ix2 r q))
    (he : ∀ (p : Fin 16000) (q : Fin 64) (r : Fin 1600000), r.val = n * 16000 + p.val → e (ix2 p q) = E (ix2 r q))
    (hmu : ∀ q : Fin 64, mu (ix2 0 q) = MU (ix2 0 q)) (hls : ∀ q : Fin 64, ls (ix2 0 q) = LS (ix2 0 q))
    (y : (⟨2, ![16000, 64]⟩ : Shape).Idx) (i : (⟨2, ![1600000, 64]⟩ : Shape).Idx)
    (hi0 : (i 0).val = n * 16000 + (y 0).val) (hi1 : (i 1).val = (y 1).val) :
    whole (edgeAt h e mu ls) y = whole (edgeAt H E MU LS) i := by
  obtain ⟨p, q, rfl⟩ : ∃ (p : Fin 16000) (q : Fin 64), y = ix2 p q := ⟨y 0, y 1, eq_ix2 y⟩
  obtain ⟨r, q', rfl⟩ : ∃ (r : Fin 1600000) (q' : Fin 64), i = ix2 r q' := ⟨i 0, i 1, eq_ix2 i⟩
  obtain rfl : q' = q := Fin.ext hi1
  rw [whole_ix2, whole_ix2]
  unfold edgeAt
  rw [hh p q' r hi0, he p q' r hi0, hmu q', hls q']

/-- Row `p` of the gathered-feature block at point `t` is row `t · 16000 + p` of the gathered features. -/
theorem feature_block0 (c : Dev nD) (t : Fin cfg0.N) (p : Fin 16000) (q : Fin 64) (r : Fin 1600000)
    (hr : r.val = t.val * 16000 + p.val) :
    (iblk0 V c 0 t : (⟨2, ![16000, 64]⟩ : Shape).Idx → EReal) (ix2 p q) = V c main_v29 (ix2 r q) := by
  obtain ⟨e0, e1, -⟩ := block_index0 t
  show V c main_v29 (((cfg0.win 0).blk t).view.emb (ix2 p q)) = V c main_v29 (ix2 r q)
  refine congrArg _ (funext fun a => Fin.ext ?_)
  match a with
  | ⟨0, _⟩ => show win0_0.index t (0 : Fin 2) * 16000 + 1 * p.val = r.val; omega
  | ⟨1, _⟩ => show win0_0.index t (1 : Fin 2) * 64 + 1 * q.val = q.val; omega

/-- Row `p` of the noise block at point `t` is row `t · 16000 + p` of the noise. -/
theorem noise_block0 (c : Dev nD) (t : Fin cfg0.N) (p : Fin 16000) (q : Fin 64) (r : Fin 1600000)
    (hr : r.val = t.val * 16000 + p.val) :
    (iblk0 V c 1 t : (⟨2, ![16000, 64]⟩ : Shape).Idx → EReal) (ix2 p q) = V c main_arg11 (ix2 r q) := by
  obtain ⟨-, -, e0, e1, -⟩ := block_index0 t
  show V c main_arg11 (((cfg0.win 1).blk t).view.emb (ix2 p q)) = V c main_arg11 (ix2 r q)
  refine congrArg _ (funext fun a => Fin.ext ?_)
  match a with
  | ⟨0, _⟩ => show win0_1.index t (0 : Fin 2) * 16000 + 1 * p.val = r.val; omega
  | ⟨1, _⟩ => show win0_1.index t (1 : Fin 2) * 64 + 1 * q.val = q.val; omega

/-- The mean row's block is the mean row at every point. -/
theorem mean_block0 (c : Dev nD) (t : Fin cfg0.N) (q : Fin 64) :
    (iblk0 V c 2 t : (⟨2, ![1, 64]⟩ : Shape).Idx → EReal) (ix2 0 q) = V c main_v30 (ix2 0 q) := by
  obtain ⟨-, -, -, -, e0, e1, -⟩ := block_index0 t
  show V c main_v30 (((cfg0.win 2).blk t).view.emb (ix2 0 q)) = V c main_v30 (ix2 0 q)
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- The log-deviation row's block is the log-deviation row at every point. -/
theorem logdev_block0 (c : Dev nD) (t : Fin cfg0.N) (q : Fin 64) :
    (iblk0 V c 3 t : (⟨2, ![1, 64]⟩ : Shape).Idx → EReal) (ix2 0 q) = V c main_v31 (ix2 0 q) := by
  obtain ⟨-, -, -, -, -, -, e0, e1, -⟩ := block_index0 t
  show V c main_v31 (((cfg0.win 3).blk t).view.emb (ix2 0 q)) = V c main_v31 (ix2 0 q)
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- What point `t` writes back is block `t` of the message array: the stored expression is the message of the loaded
    blocks, and each loaded block is the rows of its array that the output's block names. -/
theorem flushed0_eq (c : Dev nD) (t : Fin cfg0.N) :
    (dat0 (F := Ideal) V c).flushed 4 t = ((cfg0.win 4).blk t).view.read (Elt Ideal)
      (whole (edgeAt (R := 1600000) (V c main_v29) (V c main_arg11) (V c main_v30) (V c main_v31))) := by
  show (cfg0.win 4).cut (grid0.coords t) ((dat0 V c).after 4 t) = _
  rw [after0_4]
  unfold out0_4
  rw [View.canon_unit_zero origin0]
  simp only [View.ld_unit_zero (S := S16000x64) origin0, View.ld_unit_zero (S := S1x64) origin0]
  rw [k0_pay1_eq]
  obtain ⟨-, -, -, -, -, -, -, -, e0, e1⟩ := block_index0 t
  funext j
  refine edge_block_entry _ _ _ _ _ _ _ _ t.val (feature_block0 V c t) (noise_block0 V c t) (mean_block0 V c t)
    (logdev_block0 V c t) j (((cfg0.win 4).blk t).view.emb j) ?_ ?_
  · show win0_4.index t (0 : Fin 2) * 16000 + 1 * (j 0).val = t.val * 16000 + (j 0).val; omega
  · show win0_4.index t (1 : Fin 2) * 64 + 1 * (j 1).val = (j 1).val; omega

/-- An index of the message array is in point `t`'s block iff each coordinate is in the block's range on its axis. -/
theorem mem_block0 (t : Fin cfg0.N) (i : S1600000x64.Idx) :
    i ∈ ((cfg0.win 4).blk t).view.set ↔ ∀ a : Fin 2, win0_4.index t a * S16000x64.size a ≤ (i a).val
      ∧ (i a).val < win0_4.index t a * S16000x64.size a + S16000x64.size a := by
  show i ∈ ((View.whole main_v32).slice (win0_4.rect t)).set ↔ _
  rw [View.set_slice_whole, Rect.mem_set_unit]
  exact Iff.rfl

/-- Every row of the message array is in some point's block: row `r` in the block of point `r / 16000`. -/
theorem cover0 (i : S1600000x64.Idx) : ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 100 := N_0
  refine ⟨⟨(i 0).val / 16000, by rw [hN]; omega⟩, flush0_4 _, ?_⟩
  rw [mem_block0]
  obtain ⟨-, -, -, -, -, -, -, -, e0, e1⟩ := block_index0 ⟨(i 0).val / 16000, by rw [hN]; omega⟩
  intro a
  match a with
  | ⟨0, _⟩ =>
    show win0_4.index ⟨(i 0).val / 16000, _⟩ (0 : Fin 2) * 16000 ≤ (i 0).val
      ∧ (i 0).val < win0_4.index ⟨(i 0).val / 16000, _⟩ (0 : Fin 2) * 16000 + 16000
    rw [e0]; show (i 0).val / 16000 * 16000 ≤ (i 0).val ∧ (i 0).val < (i 0).val / 16000 * 16000 + 16000; omega
  | ⟨1, _⟩ =>
    show win0_4.index ⟨(i 0).val / 16000, _⟩ (1 : Fin 2) * 64 ≤ (i 1).val
      ∧ (i 1).val < win0_4.index ⟨(i 0).val / 16000, _⟩ (1 : Fin 2) * 64 + 64
    rw [e1]; omega

theorem region0_value (c : Dev nD) :
    (dat0 (F := Ideal) V c).arrAt 4 cfg0.N = whole (edgeAt (R := 1600000) (V c main_v29) (V c main_arg11) (V c main_v30) (V c main_v31)) := by
  exact (dat0 (F := Ideal) V c).arrAt_eq_of_cover 4 _ (fun t _ => flushed0_eq V c t) cover0

end Cert.KernelIdeal.Regions

end
-- ==== Proof.PayLin.lean ====
/-
  The dense layer inside a node block, entry by entry: the block's row contracted with the weight matrix (the
  product accumulated into zeros is the plain sum over the contracted coordinate; narrowing the operands' format
  changes nothing over the extended reals), plus the bias row laid along every row of the block.
-/
import proofs.«166050_j65000035058538_1_alg».proof.Proof.Gen.KernelIdeal.Skeleton
import proofs.«166050_j65000035058538_1_alg».proof.Proof.Spec
import Idealize.ShloMosaic.Lib.Pipeline.Value
import Idealize.ShloMosaic.Lib.ValueLayout

noncomputable section

namespace Cert.KernelIdeal.Pay

open Cert.KernelIdeal Cert.KernelIdeal.Gen Cert.Spec Idealize.ShloMosaic Idealize.ShloMosaic.ValueIdx

/-! ## Where the product reads its operands

  The product contracts the left operand's second axis with the right operand's first. At the output entry `i` and
  the contraction position `c`, the left operand is read at row `i 0`, column `c`; the right operand at row `c`,
  column `i 1`. One statement per operand and axis. -/

/-- The left operand's row is the output's row. -/
theorem lhs_nodeDot_0 (i : S2000x64.Idx) (c : dot_S2000x64_S64x64_S2000x64_1_0_0_1_n_n.contr.Idx) :
    (dot_S2000x64_S64x64_S2000x64_1_0_0_1_n_n.lhsIdx i c 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl

/-- The left operand's column is the contraction position. -/
theorem lhs_nodeDot_1 (i : S2000x64.Idx) (c : dot_S2000x64_S64x64_S2000x64_1_0_0_1_n_n.contr.Idx) :
    (dot_S2000x64_S64x64_S2000x64_1_0_0_1_n_n.lhsIdx i c 1).val = (c ⟨0, by decide⟩).val :=
  dot_S2000x64_S64x64_S2000x64_1_0_0_1_n_n.lhsIdx_val_of_single rfl i c

/-- The right operand's row is the contraction position. -/
theorem rhs_nodeDot_0 (i : S2000x64.Idx) (c : dot_S2000x64_S64x64_S2000x64_1_0_0_1_n_n.contr.Idx) :
    (dot_S2000x64_S64x64_S2000x64_1_0_0_1_n_n.rhsIdx i c 0).val = (c ⟨0, by decide⟩).val :=
  dot_S2000x64_S64x64_S2000x64_1_0_0_1_n_n.rhsIdx_val_of_single rfl i c

/-- The right operand's column is the output's column. -/
theorem rhs_nodeDot_1 (i : S2000x64.Idx) (c : dot_S2000x64_S64x64_S2000x64_1_0_0_1_n_n.contr.Idx) :
    (dot_S2000x64_S64x64_S2000x64_1_0_0_1_n_n.rhsIdx i c 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-! ## The product into zeros -/

/-- The product accumulated into the zero array, at row `p` and column `q`: the sum over the 64 contraction
    positions `k` of the left operand at `(p, k)` times the right operand at `(k, q)`. The contraction index is a
    one-coordinate index below 64; summing over it is summing over `Fin 64`. -/
theorem nodeDot_apply {φ₁ φ₂ : FTy} (x : FVec Ideal S2000x64 φ₁) (w : FVec Ideal S64x64 φ₂) (p : Fin 2000) (q : Fin 64) :
    matmul dot_S2000x64_S64x64_S2000x64_1_0_0_1_n_n none x w (constant (F := Ideal) S2000x64 .f32 0x00000000#32) (ix2 p q)
      = ∑ k : Fin 64, x (ix2 p k) * w (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_nodeDot_0 _ _
    | ⟨1, _⟩ => exact (lhs_nodeDot_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_nodeDot_0 _ _).trans hk
    | ⟨1, _⟩ => exact rhs_nodeDot_1 _ _)
  rw [el, er]

/-! ## The bias row along every row -/

/-- The 1 × 64 bias laid along the 2000 rows, at row `p` and column `q`: the bias at column `q` of its one row. -/
theorem nodeBias_apply (b : Vec Ideal S1x64 .f32) (p : Fin 2000) (q : Fin 64) :
    broadcastTo S2000x64 b broadcasts_S1x64_S2000x64 (ix2 p q) = b (ix2 0 q) :=
  broadcastTo_apply b broadcasts_S1x64_S2000x64 (ix2 p q) (ix2 0 q) (fun a => by
    match a with
    | ⟨0, _⟩ => rfl
    | ⟨1, _⟩ => rfl)

/-! ## The entry -/

/-- The pre-activation value both node kernels compute first (their lines %1 … %9), read at row `p`, column `q`. -/
theorem nodeLin_apply (v0 : Vec Ideal S2000x64 .f32) (v3 : Vec Ideal S64x64 .f32) (v6 : Vec Ideal S1x64 .f32) (p : Fin 2000) (q : Fin 64) :
    addf (F := Ideal)
      (matmul dot_S2000x64_S64x64_S2000x64_1_0_0_1_n_n none
        (truncf .bf16 (shapeCast S2000x64 v0 shapeCasts_S2000x64_S2000x64) bitsLt_bf16_f32)
        (truncf .bf16 v3 bitsLt_bf16_f32) (constant S2000x64 .f32 0x00000000#32))
      (broadcastTo S2000x64 (shapeCast S1x64 v6 shapeCasts_S1x64_S1x64) broadcasts_S1x64_S2000x64) (ix2 p q)
    = lin (R := 2000) v0 v3 v6 p q := by
  rw [shapeCast_self v0, shapeCast_self v6]
  refine (addf_apply _ _ _).trans ?_
  unfold lin
  refine congrArg₂ (· + ·) ?_ (nodeBias_apply v6 p q)
  refine (nodeDot_apply _ _ p q).trans ?_
  exact Finset.sum_congr rfl fun k _ => congrArg₂ (· * ·) (truncf_apply v0 bitsLt_bf16_f32 (ix2 p k)) (truncf_apply v3 bitsLt_bf16_f32 (ix2 k q))

end Cert.KernelIdeal.Pay

end
-- ==== Proof.PayRelu.lean ====
/-
  The first node kernel's stored value, entry by entry: the positive part of the dense layer's entry.
-/
import proofs.«166050_j65000035058538_1_alg».proof.Proof.PayLin

noncomputable section

namespace Cert.KernelIdeal.Pay

open Cert.KernelIdeal Cert.KernelIdeal.Gen Cert.Spec Idealize.ShloMosaic Idealize.ShloMosaic.ValueIdx

theorem k1_pay1_eq (v0 : Vec Ideal S2000x64 .f32) (v3 : Vec Ideal S64x64 .f32) (v6 : Vec Ideal S1x64 .f32) :
    k1_pay1 (F := Ideal) v0 v3 v6 = whole (reluAt (R := 2000) v0 v3 v6) := by
  funext j
  -- an index of the block is a row and a column
  obtain ⟨p, q, rfl⟩ : ∃ (p : Fin 2000) (q : Fin 64), j = ix2 p q := ⟨j 0, j 1, eq_ix2 j⟩
  rw [whole_ix2]
  unfold k1_pay1 reluAt
  -- the entry of a pointwise maximum is the maximum of the entries
  refine (maximumf_apply _ _ _).trans ?_
  -- on the left the dense layer's entry; on the right the splat of the scalar zero, which is the extended real 0
  exact congrArg₂ max (nodeLin_apply v0 v3 v6 p q) Ideal.ofBits_zero_f32

end Cert.KernelIdeal.Pay

end
-- ==== Proof.Region1.lean ====
/-
  The first node launch, as one array: 50 grid points, point t carrying rows 2000·t … 2000·t + 1999 of the aggregated features, the weight matrix and the bias row the same at every point. An entry of the dense layer reads one row of the features, so what point t writes back is rows 2000·t … of the whole layer's output, and the 50 blocks tile its 100 000 rows.
-/
import proofs.«166050_j65000035058538_1_alg».proof.Proof.Gen.KernelIdeal.Frame
import proofs.«166050_j65000035058538_1_alg».proof.Proof.PayRelu
import Idealize.ShloMosaic.Lib.Pipeline.Value

noncomputable section

namespace Cert.KernelIdeal.Regions

open Cert.KernelIdeal Cert.KernelIdeal.Gen Cert.KernelIdeal.Pay Cert.Spec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The offset of a store or load that starts at the buffer's corner. -/
theorem cornerOffset1 : (![0, 0] : Fin 2 → Nat) = fun _ => 0 := funext fun a => by fin_cases a <;> rfl

/-- The block indices of the four windows at grid point `t`, decided over the 50 points: the features' and the
    output's blocks are block `t` of rows and block 0 of columns; the weights' and the bias row's are block (0, 0). -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The dense layer's positive part on a block of 2000 rows against the same on all 100 000 rows: if row `y 0` of the
    block is row `i 0` of the array (`h0`), the weights and the bias row are the same, and the columns agree, then the
    block's entry at `y` is the array's entry at `i`. An entry reads one row of the features. -/
theorem relu_block_entry (A0 : S100000x64.Idx → EReal) (A1 : S64x64.Idx → EReal) (A2 : S1x64.Idx → EReal)
    (x0 : S2000x64.Idx → EReal) (x1 : S64x64.Idx → EReal) (x2 : S1x64.Idx → EReal)
    (y : S2000x64.Idx) (i : S100000x64.Idx)
    (h0 : ∀ k : Fin 64, x0 (ix2 ⟨(y 0).val, (y 0).isLt⟩ k) = A0 (ix2 ⟨(i 0).val, (i 0).isLt⟩ k))
    (h1 : x1 = A1) (h2 : x2 = A2) (hq : (i 1).val = (y 1).val) :
    whole (reluAt (R := 2000) x0 x1 x2) y = whole (reluAt (R := 100000) A0 A1 A2) i := by
  subst h1 h2
  rw [whole_apply, whole_apply]
  have e : (⟨(i 1).val, (i 1).isLt⟩ : Fin 64) = ⟨(y 1).val, (y 1).isLt⟩ := Fin.ext hq
  rw [e]
  exact reluAt_congr _ _ h0 _

/-- WHAT POINT `t` WRITES BACK is block `t` of the whole layer's output. The body stores, at the corner of its
    buffer, the layer's positive part of the three blocks it loaded whole. Row `p` of the features' block is row
    2000·t + p of the features (a block's coordinate is block index × block size + the coordinate inside), the same
    row the output's block puts entry (p, q) at; the weights' and the bias row's blocks are the arrays themselves. -/
theorem flushed1_eq (c : Dev nD) (t : Fin cfg1.N) :
    (dat1 (F := Ideal) V c).flushed 3 t = ((cfg1.win 3).blk t).view.read (Elt Ideal)
      (whole (reluAt (R := 100000) (V c main_v37) (V c main_arg7) (V c main_v38))) := by
  show (cfg1.win 3).cut (grid1.coords t) ((dat1 (F := Ideal) V c).after 3 t) = _
  rw [after1_3]
  unfold out1_3
  rw [View.canon_unit_zero cornerOffset1]
  simp only [View.ld_unit_zero (S := S2000x64) cornerOffset1, View.ld_unit_zero (S := S64x64) cornerOffset1,
    View.ld_unit_zero (S := S1x64) cornerOffset1]
  rw [k1_pay1_eq]
  obtain ⟨e00, e01, e10, e11, e20, e21, e30, e31⟩ := blockIndex1 t
  funext y
  show whole (reluAt (R := 2000) (iblk1 V c 0 t) (iblk1 V c 1 t) (iblk1 V c 2 t)) y
    = whole (reluAt (R := 100000) (V c main_v37) (V c main_arg7) (V c main_v38)) (((cfg1.win 3).blk t).view.emb y)
  refine relu_block_entry _ _ _ _ _ _ y _ (fun k => ?_) (funext fun z => ?_) (funext fun z => ?_) ?_
  · -- the features: row (y 0) of block t is row 2000·t + (y 0), column k is column k
    show V c main_v37 (((cfg1.win 0).blk t).view.emb (ix2 ⟨(y 0).val, (y 0).isLt⟩ k)) = _
    refine congrArg _ (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 64 + 1 * k.val = k.val; omega
  · -- the weights: block (0, 0) of size 64 × 64 is the matrix
    show V c main_arg7 (((cfg1.win 1).blk t).view.emb z) = V c main_arg7 z
    refine congrArg _ (funext fun a => Fin.ext ?_)
    match a with
    | ⟨0, _⟩ => show win1_1.index t (0 : Fin 2) * 64 + 1 * (z 0).val = (z 0).val; omega
    | ⟨1, _⟩ => show win1_1.index t (1 : Fin 2) * 64 + 1 * (z 1).val = (z 1).val; omega
  · -- the bias: block (0, 0) of size 1 × 64 is the row
    show V c main_v38 (((cfg1.win 2).blk t).view.emb z) = V c main_v38 z
    refine congrArg _ (funext fun a => Fin.ext ?_)
    match a with
    | ⟨0, _⟩ => show win1_2.index t (0 : Fin 2) * 1 + 1 * (z 0).val = (z 0).val; omega
    | ⟨1, _⟩ => show win1_2.index t (1 : Fin 2) * 64 + 1 * (z 1).val = (z 1).val; omega
  · -- the output's column inside the block is its column in the array
    show win1_3.index t (1 : Fin 2) * 64 + 1 * (y 1).val = (y 1).val; omega

/-- An index of the output array is in point `t`'s block iff each coordinate is in the block's range on its axis. -/
theorem mem_block1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v39).slice (win1_3.rect t)).set ↔ _
  rw [View.set_slice_whole, Rect.mem_set_unit]
  exact Iff.rfl

/-- The 50 blocks tile the 100 000 rows: row r lies in the block of point r / 2000, and every point writes back. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := rfl
  obtain ⟨t, ht⟩ : ∃ t : Fin cfg1.N, t.val = (i 0).val / 2000 := ⟨⟨(i 0).val / 2000, by rw [hN]; omega⟩, rfl⟩
  obtain ⟨-, -, -, -, -, -, e30, e31⟩ := blockIndex1 t
  refine ⟨t, flush1_3 t, ?_⟩
  rw [mem_block1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

theorem region1_value (c : Dev nD) :
    (dat1 (F := Ideal) V c).arrAt 3 cfg1.N = whole (reluAt (R := 100000) (V c main_v37) (V c main_arg7) (V c main_v38)) := by
  exact (dat1 (F := Ideal) V c).arrAt_eq_of_cover 3 _ (fun t _ => flushed1_eq V c t) covered1

end Cert.KernelIdeal.Regions

end
-- ==== Proof.Region2.lean ====
/-
  The second edge launch, as one array: the same schedule as the first, over the second layer's gathered features, noise, mean row and log-deviation row.
-/
import proofs.«166050_j65000035058538_1_alg».proof.Proof.Gen.KernelIdeal.Frame
import proofs.«166050_j65000035058538_1_alg».proof.Proof.PayEdge
import Idealize.ShloMosaic.Lib.Pipeline.Value

noncomputable section

namespace Cert.KernelIdeal.Regions

open Cert.KernelIdeal Cert.KernelIdeal.Gen Cert.KernelIdeal.Pay Cert.Spec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A rectangle that starts at the origin has the zero offset on every axis. -/
theorem origin2 : (![0, 0] : Fin 2 → Nat) = fun _ => 0 := funext fun a => by fin_cases a <;> rfl

/-- Where each window's block sits at grid point `t` of the second launch: the three big windows at block row `t`,
    column block 0; the two one-row windows at block (0, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The message computed from a block of 16000 rows is the message of the whole arrays at the rows the block stands for:
    if the block's row `p` is the arrays' row `n · 16000 + p` (for the features and for the noise) and the one-row operands
    agree, then entry `y` of the block's messages is entry `i` of the arrays' messages, `i` being `y` moved down by
    `n · 16000` rows. -/
theorem edge_block_entry2 (H E : (⟨2, ![1600000, 64]⟩ : Shape).Idx → EReal) (MU LS : (⟨2, ![1, 64]⟩ : Shape).Idx → EReal)
    (h e : (⟨2, ![16000, 64]⟩ : Shape).Idx → EReal) (mu ls : (⟨2, ![1, 64]⟩ : Shape).Idx → EReal) (n : ℕ)
    (hh : ∀ (p : Fin 16000) (q : Fin 64) (r : Fin 1600000), r.val = n * 16000 + p.val → h (ix2 p q) = H (ix2 r q))
    (he : ∀ (p : Fin 16000) (q : Fin 64) (r : Fin 1600000), r.val = n * 16000 + p.val → e (ix2 p q) = E (ix2 r q))
    (hmu : ∀ q : Fin 64, mu (ix2 0 q) = MU (ix2 0 q)) (hls : ∀ q : Fin 64, ls (ix2 0 q) = LS (ix2 0 q))
    (y : (⟨2, ![16000, 64]⟩ : Shape).Idx) (i : (⟨2, ![1600000, 64]⟩ : Shape).Idx)
    (hi0 : (i 0).val = n * 16000 + (y 0).val) (hi1 : (i 1).val = (y 1).val) :
    whole (edgeAt h e mu ls) y = whole (edgeAt H E MU LS) i := by
  obtain ⟨p, q, rfl⟩ : ∃ (p : Fin 16000) (q : Fin 64), y = ix2 p q := ⟨y 0, y 1, eq_ix2 y⟩
  obtain ⟨r, q', rfl⟩ : ∃ (r : Fin 1600000) (q' : Fin 64), i = ix2 r q' := ⟨i 0, i 1, eq_ix2 i⟩
  obtain rfl : q' = q := Fin.ext hi1
  rw [whole_ix2, whole_ix2]
  unfold edgeAt
  rw [hh p q' r hi0, he p q' r hi0, hmu q', hls q']

/-- Row `p` of the second layer's gathered-feature block at point `t` is row `t · 16000 + p` of those features. -/
theorem feature_block2 (c : Dev nD) (t : Fin cfg2.N) (p : Fin 16000) (q : Fin 64) (r : Fin 1600000)
    (hr : r.val = t.val * 16000 + p.val) :
    (iblk2 V c 0 t : (⟨2, ![16000, 64]⟩ : Shape).Idx → EReal) (ix2 p q) = V c main_v48 (ix2 r q) := by
  obtain ⟨e0, e1, -⟩ := block_index2 t
  show V c main_v48 (((cfg2.win 0).blk t).view.emb (ix2 p q)) = V c main_v48 (ix2 r q)
  refine congrArg _ (funext fun a => Fin.ext ?_)
  match a with
  | ⟨0, _⟩ => show win2_0.index t (0 : Fin 2) * 16000 + 1 * p.val = r.val; omega
  | ⟨1, _⟩ => show win2_0.index t (1 : Fin 2) * 64 + 1 * q.val = q.val; omega

/-- Row `p` of the second layer's noise block at point `t` is row `t · 16000 + p` of that noise. -/
theorem noise_block2 (c : Dev nD) (t : Fin cfg2.N) (p : Fin 16000) (q : Fin 64) (r : Fin 1600000)
    (hr : r.val = t.val * 16000 + p.val) :
    (iblk2 V c 1 t : (⟨2, ![16000, 64]⟩ : Shape).Idx → EReal) (ix2 p q) = V c main_arg12 (ix2 r q) := by
  obtain ⟨-, -, e0, e1, -⟩ := block_index2 t
  show V c main_arg12 (((cfg2.win 1).blk t).view.emb (ix2 p q)) = V c main_arg12 (ix2 r q)
  refine congrArg _ (funext fun a => Fin.ext ?_)
  match a with
  | ⟨0, _⟩ => show win2_1.index t (0 : Fin 2) * 16000 + 1 * p.val = r.val; omega
  | ⟨1, _⟩ => show win2_1.index t (1 : Fin 2) * 64 + 1 * q.val = q.val; omega

/-- The second layer's mean row's block is that mean row at every point. -/
theorem mean_block2 (c : Dev nD) (t : Fin cfg2.N) (q : Fin 64) :
    (iblk2 V c 2 t : (⟨2, ![1, 64]⟩ : Shape).Idx → EReal) (ix2 0 q) = V c main_v49 (ix2 0 q) := by
  obtain ⟨-, -, -, -, e0, e1, -⟩ := block_index2 t
  show V c main_v49 (((cfg2.win 2).blk t).view.emb (ix2 0 q)) = V c main_v49 (ix2 0 q)
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The second layer's log-deviation row's block is that log-deviation row at every point. -/
theorem logdev_block2 (c : Dev nD) (t : Fin cfg2.N) (q : Fin 64) :
    (iblk2 V c 3 t : (⟨2, ![1, 64]⟩ : Shape).Idx → EReal) (ix2 0 q) = V c main_v50 (ix2 0 q) := by
  obtain ⟨-, -, -, -, -, -, e0, e1, -⟩ := block_index2 t
  show V c main_v50 (((cfg2.win 3).blk t).view.emb (ix2 0 q)) = V c main_v50 (ix2 0 q)
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- What point `t` of the second launch writes back is block `t` of the second message array: the stored expression is
    the message of the loaded blocks, and each loaded block is the rows of its array that the output's block names. -/
theorem flushed2_eq (c : Dev nD) (t : Fin cfg2.N) :
    (dat2 (F := Ideal) V c).flushed 4 t = ((cfg2.win 4).blk t).view.read (Elt Ideal)
      (whole (edgeAt (R := 1600000) (V c main_v48) (V c main_arg12) (V c main_v49) (V c main_v50))) := by
  show (cfg2.win 4).cut (grid2.coords t) ((dat2 V c).after 4 t) = _
  rw [after2_4]
  unfold out2_4
  rw [View.canon_unit_zero origin2]
  simp only [View.ld_unit_zero (S := S16000x64) origin2, View.ld_unit_zero (S := S1x64) origin2]
  rw [k2_pay1_eq]
  obtain ⟨-, -, -, -, -, -, -, -, e0, e1⟩ := block_index2 t
  funext j
  refine edge_block_entry2 _ _ _ _ _ _ _ _ t.val (feature_block2 V c t) (noise_block2 V c t) (mean_block2 V c t)
    (logdev_block2 V c t) j (((cfg2.win 4).blk t).view.emb j) ?_ ?_
  · show win2_4.index t (0 : Fin 2) * 16000 + 1 * (j 0).val = t.val * 16000 + (j 0).val; omega
  · show win2_4.index t (1 : Fin 2) * 64 + 1 * (j 1).val = (j 1).val; omega

/-- An index of the second message array is in point `t`'s block iff each coordinate is in the block's range on its axis. -/
theorem mem_block2 (t : Fin cfg2.N) (i : S1600000x64.Idx) :
    i ∈ ((cfg2.win 4).blk t).view.set ↔ ∀ a : Fin 2, win2_4.index t a * S16000x64.size a ≤ (i a).val
      ∧ (i a).val < win2_4.index t a * S16000x64.size a + S16000x64.size a := by
  show i ∈ ((View.whole main_v51).slice (win2_4.rect t)).set ↔ _
  rw [View.set_slice_whole, Rect.mem_set_unit]
  exact Iff.rfl

/-- Every row of the second message array is in some point's block: row `r` in the block of point `r / 16000`. -/
theorem cover2 (i : S1600000x64.Idx) : ∃ t : Fin cfg2.N, (cfg2.win 4).flush t = true ∧ i ∈ ((cfg2.win 4).blk t).view.set := by
  have hi0 : (i 0).val < 1600000 := (i 0).isLt
  have hi1 : (i 1).val < 64 := (i 1).isLt
  have hN : cfg2.N = 100 := N_2
  refine ⟨⟨(i 0).val / 16000, by rw [hN]; omega⟩, flush2_4 _, ?_⟩
  rw [mem_block2]
  obtain ⟨-, -, -, -, -, -, -, -, e0, e1⟩ := block_index2 ⟨(i 0).val / 16000, by rw [hN]; omega⟩
  intro a
  match a with
  | ⟨0, _⟩ =>
    show win2_4.index ⟨(i 0).val / 16000, _⟩ (0 : Fin 2) * 16000 ≤ (i 0).val
      ∧ (i 0).val < win2_4.index ⟨(i 0).val / 16000, _⟩ (0 : Fin 2) * 16000 + 16000
    rw [e0]; show (i 0).val / 16000 * 16000 ≤ (i 0).val ∧ (i 0).val < (i 0).val / 16000 * 16000 + 16000; omega
  | ⟨1, _⟩ =>
    show win2_4.index ⟨(i 0).val / 16000, _⟩ (1 : Fin 2) * 64 ≤ (i 1).val
      ∧ (i 1).val < win2_4.index ⟨(i 0).val / 16000, _⟩ (1 : Fin 2) * 64 + 64
    rw [e1]; omega

theorem region2_value (c : Dev nD) :
    (dat2 (F := Ideal) V c).arrAt 4 cfg2.N = whole (edgeAt (R := 1600000) (V c main_v48) (V c main_arg12) (V c main_v49) (V c main_v50)) := by
  exact (dat2 (F := Ideal) V c).arrAt_eq_of_cover 4 _ (fun t _ => flushed2_eq V c t) cover2

end Cert.KernelIdeal.Regions

end
-- ==== Proof.PaySoftmax.lean ====
/-
  The second node kernel's stored value, entry by entry: the softmax along the row of the dense layer's entries
  (the row's largest entry as a fold of max from −∞ over its 64 columns, the row's sum of shifted exponentials).
-/
import proofs.«166050_j65000035058538_1_alg».proof.Proof.PayLin

noncomputable section

namespace Cert.KernelIdeal.Pay

open Cert.KernelIdeal Cert.KernelIdeal.Gen Cert.Spec Idealize.ShloMosaic Idealize.ShloMosaic.ValueIdx

namespace Softmax

/-! ## A reduced row kept as a column, and the column laid along the row again -/

/-- A vector of `a` entries cast to an `a × 1` column reads, at `(p, u)`, the vector at `p`: both positions are
    `p` in row-major order, the unit coordinate `u` being `0`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast to `a × b` reads, at `(p, c)`, the column at row `p`: the row coordinate is kept
    (when `a = 1` it is `0` anyway) and the unit axis is read at `0`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two reductions along a row -/

/-- The index a reduction along the columns inserts: row `p` with the column `k` put back. -/
theorem lift_ix1 (h : S2000x64.Reduces [1] S2000) (p : Fin 2000) (k : Fin 64) :
    h.lift (ix1 p) k = ix2 p k := by
  funext a
  match a with
  | ⟨0, _⟩ => exact Fin.ext rfl
  | ⟨1, _⟩ => exact Fin.ext rfl

/-- The sum of an array along its columns, at row `p`: the sum of the row's 64 entries. -/
theorem rowSum_apply (x : FVec Ideal S2000x64 .f32) (h : S2000x64.Reduces [1] S2000) (hφ : FKind.Formats .f32)
    (hacc : (0x00000000#32 : BitVec (FTy.bits .f32)) = FKind.add.neutral .f32 hφ) (p : Fin 2000) :
    multiReduction (F := Ideal) .add [1] S2000 x 0x00000000#32 h hφ hacc (ix1 p) = ∑ k : Fin 64, x (ix2 p k) := by
  refine (Ideal.multiReduction_add_single x _ h hφ hacc (ix1 p)).trans ?_
  exact Finset.sum_congr rfl fun k _ => congrArg x (lift_ix1 h p k)

/-- The bit pattern of −∞ is the bottom of the extended reals. -/
theorem ofBits_negInf_f32 : Ideal.ofBits .f32 0xFF800000#32 = ⊥ := by simp [Ideal.ofBits, Ideal.ieee]

/-- The maximum of an array along its columns, at row `p`: the fold of max from −∞ over the row's 64 entries. -/
theorem rowMax_apply (x : FVec Ideal S2000x64 .f32) (h : S2000x64.Reduces [1] S2000) (hφ : FKind.Formats .f32)
    (hacc : (0xFF800000#32 : BitVec (FTy.bits .f32)) = FKind.maximumf.neutral .f32 hφ) (p : Fin 2000) :
    multiReduction (F := Ideal) .maximumf [1] S2000 x 0xFF800000#32 h hφ hacc (ix1 p)
      = (Finset.univ : Finset (Fin 64)).fold max ⊥ (fun k => x (ix2 p k)) := by
  refine (Ideal.multiReduction_maximumf_single x _ h hφ hacc (ix1 p)).trans ?_
  have hf : (x ∘ h.lift (ix1 p)) = fun k : Fin 64 => x (ix2 p k) := funext fun k => congrArg x (lift_ix1 h p k)
  show Finset.fold max (Ideal.ofBits .f32 0xFF800000#32) (x ∘ h.lift (ix1 p)) (Finset.univ : Finset (Fin 64)) = _
  rw [ofBits_negInf_f32, hf]
  rfl

/-! ## The reduced row laid along its 64 columns -/

/-- A row's largest entry laid along the row's 64 columns: the maximum along the columns, kept as a column, broadcast. -/
def maxCol (H : FVec Ideal S2000x64 .f32) : FVec Ideal S2000x64 .f32 :=
  broadcastTo S2000x64
    (shapeCast S2000x1 (multiReduction (F := Ideal) .maximumf [1] S2000 H 0xFF800000#32 reduces_S2000x64_S2000 (.inl rfl) rfl)
      shapeCasts_S2000_S2000x1) broadcasts_S2000x1_S2000x64

/-- A row's sum laid along the row's 64 columns: the sum along the columns, kept as a column, broadcast. -/
def sumCol (E : FVec Ideal S2000x64 .f32) : FVec Ideal S2000x64 .f32 :=
  broadcastTo S2000x64
    (shapeCast S2000x1 (multiReduction (F := Ideal) .add [1] S2000 E 0x00000000#32 reduces_S2000x64_S2000 (.inl rfl) rfl)
      shapeCasts_S2000_S2000x1) broadcasts_S2000x1_S2000x64

/-- At `(p, q)` the first is the largest entry of row `p`, whatever the column `q`. -/
theorem maxCol_apply (H : FVec Ideal S2000x64 .f32) (p : Fin 2000) (q : Fin 64) :
    maxCol H (ix2 p q) = (Finset.univ : Finset (Fin 64)).fold max ⊥ (fun k => H (ix2 p k)) := by
  unfold maxCol
  rw [broadcastTo_a1_ab_apply, shapeCast_a_a1_apply]
  exact rowMax_apply H _ _ _ p

/-- At `(p, q)` the second is the sum of row `p`, whatever the column `q`. -/
theorem sumCol_apply (E : FVec Ideal S2000x64 .f32) (p : Fin 2000) (q : Fin 64) :
    sumCol E (ix2 p q) = ∑ k : Fin 64, E (ix2 p k) := by
  unfold sumCol
  rw [broadcastTo_a1_ab_apply, shapeCast_a_a1_apply]
  exact rowSum_apply E _ _ _ p

/-- The softmax of an array `H` along its rows, at `(p, q)`: the exponential of the entry less its row's largest entry,
    over the sum of those exponentials along the row. -/
theorem softmax_apply (H : FVec Ideal S2000x64 .f32) (p : Fin 2000) (q : Fin 64) :
    divf (exp (subf H (maxCol H))) (sumCol (exp (subf H (maxCol H)))) (ix2 p q)
      = Ideal.div (Ideal.exp (H (ix2 p q) - (Finset.univ : Finset (Fin 64)).fold max ⊥ (fun k => H (ix2 p k))))
          (∑ j : Fin 64, Ideal.exp (H (ix2 p j) - (Finset.univ : Finset (Fin 64)).fold max ⊥ (fun k => H (ix2 p k)))) := by
  rw [divf_apply, sumCol_apply]
  show Ideal.div (Ideal.exp (H (ix2 p q) - maxCol H (ix2 p q))) (∑ k : Fin 64, Ideal.exp (H (ix2 p k) - maxCol H (ix2 p k))) = _
  simp only [maxCol_apply]

end Softmax

open Softmax in
/-- The stored value is the softmax of the dense layer: with `H` the dense layer's array (its entry at `(p, q)` is
    `lin v0 v3 v6 p q`), the kernel's value is the softmax of `H` along its rows, and entry by entry that is `smAt`. -/
theorem k3_pay1_eq (v0 : Vec Ideal S2000x64 .f32) (v3 : Vec Ideal S64x64 .f32) (v6 : Vec Ideal S1x64 .f32) :
    k3_pay1 (F := Ideal) v0 v3 v6 = whole (smAt (R := 2000) v0 v3 v6) := by
  funext j
  obtain ⟨p, q, rfl⟩ : ∃ (p : Fin 2000) (q : Fin 64), j = ix2 p q := ⟨j 0, j 1, eq_ix2 j⟩
  rw [whole_ix2]
  refine (softmax_apply _ p q).trans ?_
  simp only [nodeLin_apply]
  rfl

end Cert.KernelIdeal.Pay

end
-- ==== Proof.Region3.lean ====
/-
  The second node launch, as one array: the same schedule as the first, the row's softmax in place of the positive part. The softmax of a row reads that row only, so the blocks are again the rows of one whole-array function.
-/
import proofs.«166050_j65000035058538_1_alg».proof.Proof.Gen.KernelIdeal.Frame
import proofs.«166050_j65000035058538_1_alg».proof.Proof.PaySoftmax
import Idealize.ShloMosaic.Lib.Pipeline.Value

noncomputable section

namespace Cert.KernelIdeal.Regions

open Cert.KernelIdeal Cert.KernelIdeal.Gen Cert.KernelIdeal.Pay Cert.Spec Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The offset of a store or load that starts at the buffer's corner. -/
theorem cornerOffset3 : (![0, 0] : Fin 2 → Nat) = fun _ => 0 := funext fun a => by fin_cases a <;> rfl

/-- The block indices of the four windows at grid point `t`, decided over the 50 points: the features' and the
    output's blocks are block `t` of rows and block 0 of columns; the weights' and the bias row's are block (0, 0). -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row softmax of the dense layer on a block of 2000 rows against the same on all 100 000 rows: if row `y 0` of
    the block is row `i 0` of the array (`h0`), the weights and the bias row are the same, and the columns agree, then
    the block's entry at `y` is the array's entry at `i`. The row's largest entry and the row's sum of exponentials
    read that one row of the features, as the entry itself does. -/
theorem softmax_block_entry (A0 : S100000x64.Idx → EReal) (A1 : S64x64.Idx → EReal) (A2 : S1x64.Idx → EReal)
    (x0 : S2000x64.Idx → EReal) (x1 : S64x64.Idx → EReal) (x2 : S1x64.Idx → EReal)
    (y : S2000x64.Idx) (i : S100000x64.Idx)
    (h0 : ∀ k : Fin 64, x0 (ix2 ⟨(y 0).val, (y 0).isLt⟩ k) = A0 (ix2 ⟨(i 0).val, (i 0).isLt⟩ k))
    (h1 : x1 = A1) (h2 : x2 = A2) (hq : (i 1).val = (y 1).val) :
    whole (smAt (R := 2000) x0 x1 x2) y = whole (smAt (R := 100000) A0 A1 A2) i := by
  subst h1 h2
  rw [whole_apply, whole_apply]
  have e : (⟨(i 1).val, (i 1).isLt⟩ : Fin 64) = ⟨(y 1).val, (y 1).isLt⟩ := Fin.ext hq
  rw [e]
  exact smAt_congr _ _ h0 _

/-- WHAT POINT `t` WRITES BACK is block `t` of the whole softmax output. The body stores, at the corner of its
    buffer, the row softmax of the dense layer of the three blocks it loaded whole. Row `p` of the features' block is
    row 2000·t + p of the features (a block's coordinate is block index × block size + the coordinate inside), the
    same row the output's block puts entry (p, q) at; the weights' and the bias row's blocks are the arrays themselves. -/
theorem flushed3_eq (c : Dev nD) (t : Fin cfg3.N) :
    (dat3 (F := Ideal) V c).flushed 3 t = ((cfg3.win 3).blk t).view.read (Elt Ideal)
      (whole (smAt (R := 100000) (V c main_v56) (V c main_arg9) (V c main_v57))) := by
  show (cfg3.win 3).cut (grid3.coords t) ((dat3 (F := Ideal) V c).after 3 t) = _
  rw [after3_3]
  unfold out3_3
  rw [View.canon_unit_zero cornerOffset3]
  simp only [View.ld_unit_zero (S := S2000x64) cornerOffset3, View.ld_unit_zero (S := S64x64) cornerOffset3,
    View.ld_unit_zero (S := S1x64) cornerOffset3]
  rw [k3_pay1_eq]
  obtain ⟨e00, e01, e10, e11, e20, e21, e30, e31⟩ := blockIndex3 t
  funext y
  show whole (smAt (R := 2000) (iblk3 V c 0 t) (iblk3 V c 1 t) (iblk3 V c 2 t)) y
    = whole (smAt (R := 100000) (V c main_v56) (V c main_arg9) (V c main_v57)) (((cfg3.win 3).blk t).view.emb y)
  refine softmax_block_entry _ _ _ _ _ _ y _ (fun k => ?_) (funext fun z => ?_) (funext fun z => ?_) ?_
  · -- the features: row (y 0) of block t is row 2000·t + (y 0), column k is column k
    show V c main_v56 (((cfg3.win 0).blk t).view.emb (ix2 ⟨(y 0).val, (y 0).isLt⟩ k)) = _
    refine congrArg _ (funext fun a => Fin.ext ?_)
    match a with
    | ⟨0, _⟩ => show win3_0.index t (0 : Fin 2) * 2000 + 1 * (y 0).val = win3_3.index t (0 : Fin 2) * 2000 + 1 * (y 0).val; omega
    | ⟨1, _⟩ => show win3_0.index t (1 : Fin 2) * 64 + 1 * k.val = k.val; omega
  · -- the weights: block (0, 0) of size 64 × 64 is the matrix
    show V c main_arg9 (((cfg3.win 1).blk t).view.emb z) = V c main_arg9 z
    refine congrArg _ (funext fun a => Fin.ext ?_)
    match a with
    | ⟨0, _⟩ => show win3_1.index t (0 : Fin 2) * 64 + 1 * (z 0).val = (z 0).val; omega
    | ⟨1, _⟩ => show win3_1.index t (1 : Fin 2) * 64 + 1 * (z 1).val = (z 1).val; omega
  · -- the bias: block (0, 0) of size 1 × 64 is the row
    show V c main_v57 (((cfg3.win 2).blk t).view.emb z) = V c main_v57 z
    refine congrArg _ (funext fun a => Fin.ext ?_)
    match a with
    | ⟨0, _⟩ => show win3_2.index t (0 : Fin 2) * 1 + 1 * (z 0).val = (z 0).val; omega
    | ⟨1, _⟩ => show win3_2.index t (1 : Fin 2) * 64 + 1 * (z 1).val = (z 1).val; omega
  · -- the output's column inside the block is its column in the array
    show win3_3.index t (1 : Fin 2) * 64 + 1 * (y 1).val = (y 1).val; omega

/-- An index of the output array is in point `t`'s block iff each coordinate is in the block's range on its axis. -/
theorem mem_block3 (t : Fin cfg3.N) (i : S100000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v58).slice (win3_3.rect t)).set ↔ _
  rw [View.set_slice_whole, Rect.mem_set_unit]
  exact Iff.rfl

/-- The 50 blocks tile the 100 000 rows: row r lies in the block of point r / 2000, and every point writes back. -/
theorem covered3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := rfl
  obtain ⟨t, ht⟩ : ∃ t : Fin cfg3.N, t.val = (i 0).val / 2000 := ⟨⟨(i 0).val / 2000, by rw [hN]; omega⟩, rfl⟩
  obtain ⟨-, -, -, -, -, -, e30, e31⟩ := blockIndex3 t
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

theorem region3_value (c : Dev nD) :
    (dat3 (F := Ideal) V c).arrAt 3 cfg3.N = whole (smAt (R := 100000) (V c main_v56) (V c main_arg9) (V c main_v57)) := by
  exact (dat3 (F := Ideal) V c).arrAt_eq_of_cover 3 _ (fun t _ => flushed3_eq V c t) covered3

end Cert.KernelIdeal.Regions

end
-- ==== Proof.RefStages.lean ====
/-
  The reference's four dense stages, entry by entry: its per-edge message of each layer is the edge formula of its
  gathered features, the layer's noise and the layer's mean and log-deviation vectors (each laid as one row); its
  first layer's output is the positive part of the dense layer of its aggregated, normalised features; its result is
  the row softmax of the second dense layer. The host's product is the plain sum over the contracted coordinate, the
  bias reaches every row through two broadcasts, the row's largest entry is the fold of max from −∞ (taking the
  larger of −∞ and it once more changes nothing), and the row's sum starts from zero.
-/
import proofs.«166050_j65000035058538_1_alg».proof.Proof.RefRead
import proofs.«166050_j65000035058538_1_alg».proof.Proof.Spec
import Idealize.ShloMosaic.Lib.Pipeline.Value
import Idealize.ShloMosaic.Lib.ValueLayout

noncomputable section

namespace Cert.ReferenceIdeal.Stages

open Cert.ReferenceIdeal Cert.ReferenceIdeal.Gen Cert.ReferenceIdeal.ReadP Cert.Spec Idealize.ShloMosaic Idealize.ShloMosaic.ValueIdx

variable (x0 : (⟨S100000x64, .f32⟩ : BufTy).Contents (Elt Ideal)) (x1 x2 : (⟨S1600000, .i32⟩ : BufTy).Contents (Elt Ideal))
  (x3 x4 x5 x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 x12 : (⟨S1600000x64, .f32⟩ : BufTy).Contents (Elt Ideal))

/-- The first layer's messages. -/
theorem v44_eq : val_main_v44 (F := Ideal) x0 x1 x3 x4 x11
    = whole (edgeAt (R := 1600000) (val_main_v43 (F := Ideal) x0 x1) x11 (rowOf x3) (rowOf x4)) := by
  funext i
  obtain ⟨n, q, rfl⟩ : ∃ (n : Fin 1600000) (q : Fin 64), i = ix2 n q := ⟨i 0, i 1, eq_ix2 i⟩
  rw [val_main_v44_apply, val_main_v27_apply, val_main_v26_apply, val_main_v25_apply, val_main_v24_apply, val_main_v23_apply, val_main_v22_apply, val_main_v21_apply]
  generalize val_main_v43 (F := Ideal) x0 x1 = H
  rw [whole_ix2]
  unfold edgeAt
  rw [rowOf_ix2, rowOf_ix2]
  have h1 : idx_main_v25 (idx_main_v26 (ix2 n q)) = ix1 q :=
    funext fun a => Fin.ext (by match a with | ⟨0, _⟩ => rfl)
  have h2 : idx_main_v22 (idx_main_v23 (ix2 n q)) = ix1 q :=
    funext fun a => Fin.ext (by match a with | ⟨0, _⟩ => rfl)
  rw [h1, h2]
  rfl

/-- The first layer's output. -/
theorem v54_eq : val_main_v54 (F := Ideal) x0 x1 x2 x3 x4 x7 x8 x11
    = whole (reluAt (R := 100000) (val_main_v49 (F := Ideal) x0 x1 x2 x3 x4 x11) x7 (rowOf x8)) := by
  funext i
  obtain ⟨n, q, rfl⟩ : ∃ (n : Fin 100000) (q : Fin 64), i = ix2 n q := ⟨i 0, i 1, eq_ix2 i⟩
  rw [val_main_v54_apply, val_main_v53_apply, val_main_v50_apply, val_main_v52_apply, val_main_v51_apply,
    val_main_call2_v0_apply, val_main_call2_cst_apply]
  generalize val_main_v49 (F := Ideal) x0 x1 x2 x3 x4 x11 = Y
  rw [whole_ix2]
  unfold reluAt lin
  rw [rowOf_ix2]
  have hl : ∀ k : Fin 64, lidx_main_v50 (ix2 n q) k = ix2 n k := fun k =>
    funext fun a => Fin.ext (by match a with | ⟨0, _⟩ => rfl | ⟨1, _⟩ => rfl)
  have hr : ∀ k : Fin 64, ridx_main_v50 (ix2 n q) k = ix2 k q := fun k =>
    funext fun a => Fin.ext (by match a with | ⟨0, _⟩ => rfl | ⟨1, _⟩ => rfl)
  have hb : idx_main_v51 (idx_main_v52 (ix2 n q)) = ix1 q :=
    funext fun a => Fin.ext (by match a with | ⟨0, _⟩ => rfl)
  simp only [hl, hr, hb]
  rw [Ideal.ofBits_def, Ideal.ofBits_zero_f32]
  rfl

/-- The second layer's messages. -/
theorem v64_eq : val_main_v64 (F := Ideal) x0 x1 x2 x3 x4 x5 x6 x7 x8 x11 x12
    = whole (edgeAt (R := 1600000) (val_main_v63 (F := Ideal) x0 x1 x2 x3 x4 x7 x8 x11) x12 (rowOf x5) (rowOf x6)) := by
  funext i
  obtain ⟨n, q, rfl⟩ : ∃ (n : Fin 1600000) (q : Fin 64), i = ix2 n q := ⟨i 0, i 1, eq_ix2 i⟩
  rw [val_main_v64_apply, val_main_v34_apply, val_main_v33_apply, val_main_v32_apply, val_main_v31_apply, val_main_v30_apply, val_main_v29_apply, val_main_v28_apply]
  generalize val_main_v63 (F := Ideal) x0 x1 x2 x3 x4 x7 x8 x11 = H
  rw [whole_ix2]
  unfold edgeAt
  rw [rowOf_ix2, rowOf_ix2]
  have h1 : idx_main_v32 (idx_main_v33 (ix2 n q)) = ix1 q :=
    funext fun a => Fin.ext (by match a with | ⟨0, _⟩ => rfl)
  have h2 : idx_main_v29 (idx_main_v30 (ix2 n q)) = ix1 q :=
    funext fun a => Fin.ext (by match a with | ⟨0, _⟩ => rfl)
  rw [h1, h2]
  rfl

/-! ## The softmax of the second dense layer, one stage at a time -/

/-- The bit pattern of −∞ reads as the bottom element. -/
private theorem ofBits_negInf : Ideal.ofBits .f32 0xFF800000#32 = (⊥ : EReal) := by simp [Ideal.ofBits, Ideal.ieee]

/-- The reduced index `n` with column `k` put back is (n, k). -/
private theorem lift_row (h : S100000x64.Reduces [1] S100000) (n : Fin 100000) (k : Fin (S100000x64.size 1)) :
    h.lift (ix1 n) k = ix2 n (⟨k.val, k.isLt⟩ : Fin 64) := by
  funext c; apply Fin.ext
  fin_cases c <;> rfl

/-- The second dense layer's entry: the row of the aggregated features against the weight column, plus the bias. -/
private theorem v73_at (n : Fin 100000) (q : Fin 64) :
    val_main_v73 (F := Ideal) x0 x1 x2 x3 x4 x5 x6 x7 x8 x9 x10 x11 x12 (ix2 n q)
      = lin (val_main_v69 (F := Ideal) x0 x1 x2 x3 x4 x5 x6 x7 x8 x11 x12) x9 (rowOf x10) n q := by
  rewrite [val_main_v73_apply, val_main_v70_apply, val_main_v72_apply, val_main_v71_apply]
  generalize val_main_v69 (F := Ideal) x0 x1 x2 x3 x4 x5 x6 x7 x8 x11 x12 = Y
  unfold lin
  rewrite [rowOf_ix2]
  have hl : ∀ k : Fin 64, lidx_main_v70 (ix2 n q) k = ix2 n k := fun k =>
    funext fun a => Fin.ext (by match a with | ⟨0, _⟩ => rfl | ⟨1, _⟩ => rfl)
  have hr : ∀ k : Fin 64, ridx_main_v70 (ix2 n q) k = ix2 k q := fun k =>
    funext fun a => Fin.ext (by match a with | ⟨0, _⟩ => rfl | ⟨1, _⟩ => rfl)
  have hb : idx_main_v71 (idx_main_v72 (ix2 n q)) = ix1 q :=
    funext fun a => Fin.ext (by match a with | ⟨0, _⟩ => rfl)
  simp only [hl, hr, hb]
  rfl

/-- From −∞ the reduce with a maximum body along a row is the fold of max from the bottom over the row's 64 entries. -/
private theorem v74_at (n : Fin 100000) :
    val_main_v74 (F := Ideal) x0 x1 x2 x3 x4 x5 x6 x7 x8 x9 x10 x11 x12 (ix1 n)
      = (Finset.univ : Finset (Fin 64)).fold max ⊥
          (fun q => val_main_v73 (F := Ideal) x0 x1 x2 x3 x4 x5 x6 x7 x8 x9 x10 x11 x12 (ix2 n q)) := by
  unfold val_main_v74
  generalize val_main_v73 (F := Ideal) x0 x1 x2 x3 x4 x5 x6 x7 x8 x9 x10 x11 x12 = y
  have h : S100000x64.Reduces [1] S100000 := by decide
  have key := Host.reduce_eq_fold_single (FloatOps.maximumf (F := Ideal) (φ := .f32)) y (val_main_cst_13 (F := Ideal))
    reducesTo_S100000x64_S100000_d1 h h_S_ (ix1 n)
  refine key.trans ?_
  have e0 : val_main_cst_13 (F := Ideal) (Shape.Idx.first h_S_) = (⊥ : EReal) := by
    rw [val_main_cst_13_apply, Ideal.ofBits_def, ofBits_negInf]
  rewrite [e0]
  have hf : ∀ k : Fin 64, h.lift (ix1 n) k = ix2 n k := fun k => lift_row h n k
  have hf' : (fun k : Fin 64 => y (h.lift (ix1 n) k)) = fun k : Fin 64 => y (ix2 n k) :=
    funext fun k => congrArg y (hf k)
  exact congrArg (fun f => Finset.fold max (⊥ : EReal) f (Finset.univ : Finset (Fin 64))) hf'

/-- The larger of −∞ and the row's largest entry is the row's largest entry. -/
private theorem v76_at (n : Fin 100000) :
    val_main_v76 (F := Ideal) x0 x1 x2 x3 x4 x5 x6 x7 x8 x9 x10 x11 x12 (ix1 n)
      = rowMax (val_main_v69 (F := Ideal) x0 x1 x2 x3 x4 x5 x6 x7 x8 x11 x12) x9 (rowOf x10) n := by
  rewrite [val_main_v76_apply, val_main_v75_apply, val_main_cst_14_apply, v74_at]
  simp only [v73_at]
  unfold rowMax
  rewrite [Ideal.ofBits_def, ofBits_negInf, Ideal.maximumf_def]
  exact max_eq_right bot_le

/-- The shifted exponential of the second dense layer's entry. -/
private theorem v80_at (n : Fin 100000) (q : Fin 64) :
    val_main_v80 (F := Ideal) x0 x1 x2 x3 x4 x5 x6 x7 x8 x9 x10 x11 x12 (ix2 n q)
      = expAt (val_main_v69 (F := Ideal) x0 x1 x2 x3 x4 x5 x6 x7 x8 x11 x12) x9 (rowOf x10) n q := by
  rewrite [val_main_v80_apply, val_main_v79_apply, val_main_v78_apply, val_main_v77_apply]
  have hi : idx_main_v77 (idx_main_v78 (ix2 n q)) = ix1 n :=
    funext fun a => Fin.ext (by match a with | ⟨0, _⟩ => rfl)
  rewrite [hi, v76_at, v73_at]
  unfold expAt
  rewrite [Ideal.hostUnary_exp_def, Ideal.subf_def]
  rfl

/-- The result. -/
theorem v84_eq : val_main_v84 (F := Ideal) x0 x1 x2 x3 x4 x5 x6 x7 x8 x9 x10 x11 x12
    = whole (smAt (R := 100000) (val_main_v69 (F := Ideal) x0 x1 x2 x3 x4 x5 x6 x7 x8 x11 x12) x9 (rowOf x10)) := by
  funext i
  obtain ⟨n, q, rfl⟩ : ∃ (n : Fin 100000) (q : Fin 64), i = ix2 n q := ⟨i 0, i 1, eq_ix2 i⟩
  rewrite [val_main_v84_apply, val_main_v83_apply, val_main_v82_apply, val_main_v81_apply, val_main_cst_15_apply]
  have hi : idx_main_v82 (idx_main_v83 (ix2 n q)) = ix1 n :=
    funext fun a => Fin.ext (by match a with | ⟨0, _⟩ => rfl)
  have hk : ∀ k : Fin 64, idx_main_v81 (ix1 n) k = ix2 n k := fun k =>
    funext fun a => Fin.ext (by match a with | ⟨0, _⟩ => rfl | ⟨1, _⟩ => rfl)
  rewrite [hi]
  simp only [hk, v80_at]
  rewrite [whole_ix2, Ideal.ofBits_def, Ideal.ofBits_zero_f32, zero_add, Ideal.hostDivf_def]
  unfold smAt
  rfl

end Cert.ReferenceIdeal.Stages

end
-- ==== Proof.Fold.lean ====
/-
  The kernel program's buffers from the first kernel region's exit to the last one's, as functions of the launch arrays,
  each equal to the reference's stage of the same name in the mathematics.
  A region leaves in its output array the whole-array function of its input arrays (the edge formula, the dense layer's
  positive part, the row softmax) and every other buffer as it found it; a host stretch between two regions applies the
  reference's own operations (the scatter-add into zeros along the destinations, the in-degree normaliser, the
  out-degree normaliser, the gather along the sources, a vector recast as a row) to what the region before left. So the
  first messages are the reference's first messages, their aggregate its aggregate, the first layer's output its
  first layer's output, and so on to the result.
-/
import proofs.«166050_j65000035058538_1_alg».proof.Proof.Fold5
import proofs.«166050_j65000035058538_1_alg».proof.Proof.Region0
import proofs.«166050_j65000035058538_1_alg».proof.Proof.Region1
import proofs.«166050_j65000035058538_1_alg».proof.Proof.Region2
import proofs.«166050_j65000035058538_1_alg».proof.Proof.Region3
import proofs.«166050_j65000035058538_1_alg».proof.Proof.RefStages
import Idealize.ShloMosaic.Lib.StableHlo.Run
import Idealize.ShloMosaic.Lib.Pipeline.Value

noncomputable section

namespace Cert.KernelIdeal.Fold

open Cert.KernelIdeal Cert.KernelIdeal.Gen Cert.Spec Idealize.ShloMosaic Idealize.ShloMosaic.TcCoe Idealize.SL.Sem
open Idealize.ShloMosaic.StableHlo Idealize.ShloMosaic.ValueIdx
open Cert.KernelIdeal.Regions Cert.ReferenceIdeal.Stages

variable (m : (ℓ : Loc nD τ sig) → Buf (Elt Ideal) ℓ) (ρ : Dev nD → PrngReg) (c : Dev nD)

/-- A vector of 64 entries recast as a 1 × 64 array is that vector as the array's one row. -/
theorem reshape_row (x : (⟨1, ![64]⟩ : Shape).Idx → EReal) (h : (⟨1, ![64]⟩ : Shape).ShapeCasts ⟨2, ![1, 64]⟩) :
    shapeCast ⟨2, ![1, 64]⟩ x h = rowOf x := by
  funext i
  obtain ⟨u, q, rfl⟩ : ∃ (u : Fin 1) (q : Fin 64), i = ix2 u q := ⟨i 0, i 1, eq_ix2 i⟩
  rw [rowOf_ix2]
  exact shapeCast_apply x h _ _ (by
    have hu : u.val = 0 := by omega
    rw [Shape.rowMajor_val_two, Shape.rowMajor_val_one]
    show q.val = u.val * 64 + q.val
    rw [hu]; omega)

/-! ## After the first edge region -/

/-- The first layer's messages are the reference's. -/
theorem w6_v32 : W6 m ρ c (Proc.devRef .tc main_v32)
    = Cert.ReferenceIdeal.ReadP.val_main_v44 (F := Ideal) (a0 m c) (a1 m c) (a3 m c) (a4 m c) (a11 m c) := by
  refine (W6_arr m ρ c 4).trans ?_
  rw [region0_value (V5 m ρ) c]
  show whole (edgeAt (R := 1600000) (W5 m ρ c (Proc.devRef .tc main_v29)) (W5 m ρ c (Proc.devRef .tc main_arg11))
    (W5 m ρ c (Proc.devRef .tc main_v30)) (W5 m ρ c (Proc.devRef .tc main_v31))) = _
  rw [w5_v29, w5_arg11, w5_v30, w5_v31, reshape_row, reshape_row]
  exact (v44_eq _ _ _ _ _).symm

/-! The region writes its output array only: what is read later is as the region found it. -/

theorem w6_arg2 : W6 m ρ c (Proc.devRef .tc main_arg2) = a2 m c :=
  (W6_of_ne m ρ c main_arg2 (by decide)).trans (w5_arg2 m ρ c)
theorem w6_v20 : W6 m ρ c (Proc.devRef .tc main_v20) = Cert.ReferenceIdeal.ReadP.val_main_v20 (F := Ideal) (a2 m c) :=
  (W6_of_ne m ρ c main_v20 (by decide)).trans (w5_v20 m ρ c)
theorem w6_arg8 : W6 m ρ c (Proc.devRef .tc main_arg8) = a8 m c :=
  (W6_of_ne m ρ c main_arg8 (by decide)).trans (w5_arg8 m ρ c)
theorem w6_arg7 : W6 m ρ c (Proc.devRef .tc main_arg7) = a7 m c :=
  (W6_of_ne m ρ c main_arg7 (by decide)).trans (w5_arg7 m ρ c)
theorem w6_v13 : W6 m ρ c (Proc.devRef .tc main_v13) = Cert.ReferenceIdeal.ReadP.val_main_v13 (F := Ideal) (a1 m c) :=
  (W6_of_ne m ρ c main_v13 (by decide)).trans (w5_v13 m ρ c)
theorem w6_arg1 : W6 m ρ c (Proc.devRef .tc main_arg1) = a1 m c :=
  (W6_of_ne m ρ c main_arg1 (by decide)).trans (w5_arg1 m ρ c)
theorem w6_arg5 : W6 m ρ c (Proc.devRef .tc main_arg5) = a5 m c :=
  (W6_of_ne m ρ c main_arg5 (by decide)).trans (w5_arg5 m ρ c)
theorem w6_arg6 : W6 m ρ c (Proc.devRef .tc main_arg6) = a6 m c :=
  (W6_of_ne m ρ c main_arg6 (by decide)).trans (w5_arg6 m ρ c)
theorem w6_arg12 : W6 m ρ c (Proc.devRef .tc main_arg12) = a12 m c :=
  (W6_of_ne m ρ c main_arg12 (by decide)).trans (w5_arg12 m ρ c)
theorem w6_arg10 : W6 m ρ c (Proc.devRef .tc main_arg10) = a10 m c :=
  (W6_of_ne m ρ c main_arg10 (by decide)).trans (w5_arg10 m ρ c)
theorem w6_arg9 : W6 m ρ c (Proc.devRef .tc main_arg9) = a9 m c :=
  (W6_of_ne m ρ c main_arg9 (by decide)).trans (w5_arg9 m ρ c)

/-! ## Before the first node region -/

/-- The aggregated, normalised first messages are the reference's. -/
theorem w7_v37 : W7 m ρ c (Proc.devRef .tc main_v37)
    = Cert.ReferenceIdeal.ReadP.val_main_v49 (F := Ideal) (a0 m c) (a1 m c) (a2 m c) (a3 m c) (a4 m c) (a11 m c) := by
  simp only [W7, hostOps1]
  after_results
  rw [w6_arg2, w6_v32, w6_v20]
  rfl

/-- The first bias vector as one row. -/
theorem w7_v38 : W7 m ρ c (Proc.devRef .tc main_v38) = rowOf (a8 m c) := by
  have e : W7 m ρ c (Proc.devRef .tc main_v38)
      = shapeCast S1x64 (W6 m ρ c (Proc.devRef .tc main_arg8)) shapeCasts_S64_S1x64 := by
    simp only [W7, hostOps1]; after_results; funext i; rfl
  rw [e, w6_arg8]; exact reshape_row _ _

/-! The stretch writes its own intermediate buffers only. -/

theorem w7_arg7 : W7 m ρ c (Proc.devRef .tc main_arg7) = a7 m c := by
  simp only [W7, hostOps1]; after_results; exact w6_arg7 m ρ c
theorem w7_v13 : W7 m ρ c (Proc.devRef .tc main_v13) = Cert.ReferenceIdeal.ReadP.val_main_v13 (F := Ideal) (a1 m c) := by
  simp only [W7, hostOps1]; after_results; exact w6_v13 m ρ c
theorem w7_arg1 : W7 m ρ c (Proc.devRef .tc main_arg1) = a1 m c := by
  simp only [W7, hostOps1]; after_results; exact w6_arg1 m ρ c
theorem w7_arg5 : W7 m ρ c (Proc.devRef .tc main_arg5) = a5 m c := by
  simp only [W7, hostOps1]; after_results; exact w6_arg5 m ρ c
theorem w7_arg6 : W7 m ρ c (Proc.devRef .tc main_arg6) = a6 m c := by
  simp only [W7, hostOps1]; after_results; exact w6_arg6 m ρ c
theorem w7_arg12 : W7 m ρ c (Proc.devRef .tc main_arg12) = a12 m c := by
  simp only [W7, hostOps1]; after_results; exact w6_arg12 m ρ c
theorem w7_arg2 : W7 m ρ c (Proc.devRef .tc main_arg2) = a2 m c := by
  simp only [W7, hostOps1]; after_results; exact w6_arg2 m ρ c
theorem w7_v20 : W7 m ρ c (Proc.devRef .tc main_v20) = Cert.ReferenceIdeal.ReadP.val_main_v20 (F := Ideal) (a2 m c) := by
  simp only [W7, hostOps1]; after_results; exact w6_v20 m ρ c
theorem w7_arg10 : W7 m ρ c (Proc.devRef .tc main_arg10) = a10 m c := by
  simp only [W7, hostOps1]; after_results; exact w6_arg10 m ρ c
theorem w7_arg9 : W7 m ρ c (Proc.devRef .tc main_arg9) = a9 m c := by
  simp only [W7, hostOps1]; after_results; exact w6_arg9 m ρ c

/-! ## After the first node region -/

/-- The first layer's output is the reference's. -/
theorem w8_v39 : W8 m ρ c (Proc.devRef .tc main_v39)
    = Cert.ReferenceIdeal.ReadP.val_main_v54 (F := Ideal) (a0 m c) (a1 m c) (a2 m c) (a3 m c) (a4 m c) (a7 m c) (a8 m c) (a11 m c) := by
  refine (W8_arr m ρ c 3).trans ?_
  rw [region1_value (V7 m ρ) c]
  show whole (reluAt (R := 100000) (W7 m ρ c (Proc.devRef .tc main_v37)) (W7 m ρ c (Proc.devRef .tc main_arg7))
    (W7 m ρ c (Proc.devRef .tc main_v38))) = _
  rw [w7_v37, w7_arg7, w7_v38]
  exact (v54_eq _ _ _ _ _ _ _ _).symm

theorem w8_v13 : W8 m ρ c (Proc.devRef .tc main_v13) = Cert.ReferenceIdeal.ReadP.val_main_v13 (F := Ideal) (a1 m c) :=
  (W8_of_ne m ρ c main_v13 (by decide)).trans (w7_v13 m ρ c)
theorem w8_arg1 : W8 m ρ c (Proc.devRef .tc main_arg1) = a1 m c :=
  (W8_of_ne m ρ c main_arg1 (by decide)).trans (w7_arg1 m ρ c)
theorem w8_arg5 : W8 m ρ c (Proc.devRef .tc main_arg5) = a5 m c :=
  (W8_of_ne m ρ c main_arg5 (by decide)).trans (w7_arg5 m ρ c)
theorem w8_arg6 : W8 m ρ c (Proc.devRef .tc main_arg6) = a6 m c :=
  (W8_of_ne m ρ c main_arg6 (by decide)).trans (w7_arg6 m ρ c)
theorem w8_arg12 : W8 m ρ c (Proc.devRef .tc main_arg12) = a12 m c :=
  (W8_of_ne m ρ c main_arg12 (by decide)).trans (w7_arg12 m ρ c)
theorem w8_arg2 : W8 m ρ c (Proc.devRef .tc main_arg2) = a2 m c :=
  (W8_of_ne m ρ c main_arg2 (by decide)).trans (w7_arg2 m ρ c)
theorem w8_v20 : W8 m ρ c (Proc.devRef .tc main_v20) = Cert.ReferenceIdeal.ReadP.val_main_v20 (F := Ideal) (a2 m c) :=
  (W8_of_ne m ρ c main_v20 (by decide)).trans (w7_v20 m ρ c)
theorem w8_arg10 : W8 m ρ c (Proc.devRef .tc main_arg10) = a10 m c :=
  (W8_of_ne m ρ c main_arg10 (by decide)).trans (w7_arg10 m ρ c)
theorem w8_arg9 : W8 m ρ c (Proc.devRef .tc main_arg9) = a9 m c :=
  (W8_of_ne m ρ c main_arg9 (by decide)).trans (w7_arg9 m ρ c)

/-! ## Before the second edge region -/

set_option maxHeartbeats 1000000 in
/-- The gathered, normalised first-layer output is the reference's. -/
theorem w9_v48 : W9 m ρ c (Proc.devRef .tc main_v48)
    = Cert.ReferenceIdeal.ReadP.val_main_v63 (F := Ideal) (a0 m c) (a1 m c) (a2 m c) (a3 m c) (a4 m c) (a7 m c) (a8 m c) (a11 m c) := by
  simp only [W9, hostOps2]
  after_results_simp
  rw [w8_v39, w8_v13, w8_arg1]
  rfl

/-- The second mean vector as one row. -/
theorem w9_v49 : W9 m ρ c (Proc.devRef .tc main_v49) = rowOf (a5 m c) := by
  have e : W9 m ρ c (Proc.devRef .tc main_v49)
      = shapeCast S1x64 (W8 m ρ c (Proc.devRef .tc main_arg5)) shapeCasts_S64_S1x64 := by
    simp only [W9, hostOps2]; after_results; funext i; rfl
  rw [e, w8_arg5]; exact reshape_row _ _

/-- The second log-deviation vector as one row. -/
theorem w9_v50 : W9 m ρ c (Proc.devRef .tc main_v50) = rowOf (a6 m c) := by
  have e : W9 m ρ c (Proc.devRef .tc main_v50)
      = shapeCast S1x64 (W8 m ρ c (Proc.devRef .tc main_arg6)) shapeCasts_S64_S1x64 := by
    simp only [W9, hostOps2]; after_results; funext i; rfl
  rw [e, w8_arg6]; exact reshape_row _ _

theorem w9_arg12 : W9 m ρ c (Proc.devRef .tc main_arg12) = a12 m c := by
  simp only [W9, hostOps2]; after_results; exact w8_arg12 m ρ c
theorem w9_arg2 : W9 m ρ c (Proc.devRef .tc main_arg2) = a2 m c := by
  simp only [W9, hostOps2]; after_results; exact w8_arg2 m ρ c
theorem w9_v20 : W9 m ρ c (Proc.devRef .tc main_v20) = Cert.ReferenceIdeal.ReadP.val_main_v20 (F := Ideal) (a2 m c) := by
  simp only [W9, hostOps2]; after_results; exact w8_v20 m ρ c
theorem w9_arg10 : W9 m ρ c (Proc.devRef .tc main_arg10) = a10 m c := by
  simp only [W9, hostOps2]; after_results; exact w8_arg10 m ρ c
theorem w9_arg9 : W9 m ρ c (Proc.devRef .tc main_arg9) = a9 m c := by
  simp only [W9, hostOps2]; after_results; exact w8_arg9 m ρ c

/-! ## After the second edge region -/

/-- The second layer's messages are the reference's. -/
theorem w10_v51 : W10 m ρ c (Proc.devRef .tc main_v51)
    = Cert.ReferenceIdeal.ReadP.val_main_v64 (F := Ideal) (a0 m c) (a1 m c) (a2 m c) (a3 m c) (a4 m c) (a5 m c) (a6 m c) (a7 m c) (a8 m c) (a11 m c) (a12 m c) := by
  refine (W10_arr m ρ c 4).trans ?_
  rw [region2_value (V9 m ρ) c]
  show whole (edgeAt (R := 1600000) (W9 m ρ c (Proc.devRef .tc main_v48)) (W9 m ρ c (Proc.devRef .tc main_arg12))
    (W9 m ρ c (Proc.devRef .tc main_v49)) (W9 m ρ c (Proc.devRef .tc main_v50))) = _
  rw [w9_v48, w9_arg12, w9_v49, w9_v50]
  exact (v64_eq _ _ _ _ _ _ _ _ _ _ _).symm

theorem w10_arg2 : W10 m ρ c (Proc.devRef .tc main_arg2) = a2 m c :=
  (W10_of_ne m ρ c main_arg2 (by decide)).trans (w9_arg2 m ρ c)
theorem w10_v20 : W10 m ρ c (Proc.devRef .tc main_v20) = Cert.ReferenceIdeal.ReadP.val_main_v20 (F := Ideal) (a2 m c) :=
  (W10_of_ne m ρ c main_v20 (by decide)).trans (w9_v20 m ρ c)
theorem w10_arg10 : W10 m ρ c (Proc.devRef .tc main_arg10) = a10 m c :=
  (W10_of_ne m ρ c main_arg10 (by decide)).trans (w9_arg10 m ρ c)
theorem w10_arg9 : W10 m ρ c (Proc.devRef .tc main_arg9) = a9 m c :=
  (W10_of_ne m ρ c main_arg9 (by decide)).trans (w9_arg9 m ρ c)

/-! ## Before the second node region -/

/-- The aggregated, normalised second messages are the reference's. -/
theorem w11_v56 : W11 m ρ c (Proc.devRef .tc main_v56)
    = Cert.ReferenceIdeal.ReadP.val_main_v69 (F := Ideal) (a0 m c) (a1 m c) (a2 m c) (a3 m c) (a4 m c) (a5 m c) (a6 m c) (a7 m c) (a8 m c) (a11 m c) (a12 m c) := by
  simp only [W11, hostOps3]
  after_results
  rw [w10_arg2, w10_v51, w10_v20]
  rfl

/-- The second bias vector as one row. -/
theorem w11_v57 : W11 m ρ c (Proc.devRef .tc main_v57) = rowOf (a10 m c) := by
  have e : W11 m ρ c (Proc.devRef .tc main_v57)
      = shapeCast S1x64 (W10 m ρ c (Proc.devRef .tc main_arg10)) shapeCasts_S64_S1x64 := by
    simp only [W11, hostOps3]; after_results; funext i; rfl
  rw [e, w10_arg10]; exact reshape_row _ _

theorem w11_arg9 : W11 m ρ c (Proc.devRef .tc main_arg9) = a9 m c := by
  simp only [W11, hostOps3]; after_results; exact w10_arg9 m ρ c

/-! ## After the second node region: the result -/

/-- The program's result array is the reference's result. -/
theorem w12_v58 : W12 m ρ c (Proc.devRef .tc main_v58)
    = Cert.ReferenceIdeal.ReadP.val_main_v84 (F := Ideal) (a0 m c) (a1 m c) (a2 m c) (a3 m c) (a4 m c) (a5 m c) (a6 m c) (a7 m c) (a8 m c) (a9 m c) (a10 m c) (a11 m c) (a12 m c) := by
  refine (W12_arr m ρ c 3).trans ?_
  rw [region3_value (V11 m ρ) c]
  show whole (smAt (R := 100000) (W11 m ρ c (Proc.devRef .tc main_v56)) (W11 m ρ c (Proc.devRef .tc main_arg9))
    (W11 m ρ c (Proc.devRef .tc main_v57))) = _
  rw [w11_v56, w11_arg9, w11_v57]
  exact (v84_eq _ _ _ _ _ _ _ _ _ _ _ _ _).symm

end Cert.KernelIdeal.Fold

end
-- ==== Proof.Claims.lean ====
/-
  The five claims. The kernel program ends with its result array at the reference's last stage evaluated at the launch
  arrays (the run once more with the result named, and the chain of equalities from the first region to the last); the
  reference ends with its result at the same stage of its own launch arrays, which are the kernel's; so the two results
  are one array. The frames are the generated ones (the reference's is its run with the result dropped), and the
  idealization rewrote nothing.
-/
import proofs.«166050_j65000035058538_1_alg».proof.Defs
import proofs.«166050_j65000035058538_1_alg».proof.Proof.Gen.Kernel.Frame
import proofs.«166050_j65000035058538_1_alg».proof.Proof.Gen.KernelIdeal.Frame
import proofs.«166050_j65000035058538_1_alg».proof.Proof.Gen.ReferenceIdeal
import proofs.«166050_j65000035058538_1_alg».proof.Proof.Gen.Pre_finite_inputs
import proofs.«166050_j65000035058538_1_alg».proof.Proof.FrameRun
import proofs.«166050_j65000035058538_1_alg».proof.Proof.Fold
import proofs.«166050_j65000035058538_1_alg».proof.Proof.RefRead

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

open Cert.KernelIdeal.Fold in
/-- Both programs end with the reference's last stage of the launch arrays in their result arrays. -/
theorem algebraic : Cert.algebraic_KernelIdeal_ReferenceIdeal := by
  intro m ρ m' ρ' _ hagree
  refine ⟨fun c => Cert.ReferenceIdeal.ReadP.val_main_v84 (F := Ideal) (a0 m c) (a1 m c) (a2 m c) (a3 m c) (a4 m c) (a5 m c)
    (a6 m c) (a7 m c) (a8 m c) (a9 m c) (a10 m c) (a11 m c) (a12 m c), ?_, ?_⟩
  · exact (θ_run Cert.KernelIdeal.defs _ _).mono (fun r h c => ⟨(h c).1.trans (w12_v58 m ρ c), (h c).2⟩)
      (Cert.KernelIdeal.Gen.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v84_eq, e0, e1, e2, e3, e4, e5, e6, e7, e8, e9, e10, e11, e12]

end Cert.Proof.Claims

end
-- ==== Proof.lean ====
/-
  A two-layer graph convolution with sampled per-edge weights: per edge, the gathered source feature times
  (mean + exp(log-deviation) · noise); per node, the sum of the incoming messages, normalised by the degrees, through a
  dense layer; the positive part after the first layer, the row softmax after the second. The kernel program computes
  the two per-edge products and the two dense layers in four blocked kernel launches and everything between them by the
  reference's own host operations; over the extended reals a block of rows of each launch is the same rows of the
  whole-array function, so launch by launch its arrays are the reference's, and the results agree.
  Proof/Spec.lean states the entry formulas; Proof/Pay*.lean read the kernel bodies at an entry; Proof/Region*.lean
  turn blocks into whole arrays; Proof/RefStages.lean reads the reference's stages at an entry; Proof/Fold5.lean and
  Proof/Fold.lean follow the program from launch to result; Proof/Claims.lean states the five claims.
-/
import proofs.«166050_j65000035058538_1_alg».proof.Defs
import proofs.«166050_j65000035058538_1_alg».proof.Proof.Gen.Kernel
import proofs.«166050_j65000035058538_1_alg».proof.Proof.Gen.Kernel.Skeleton
import proofs.«166050_j65000035058538_1_alg».proof.Proof.Gen.Kernel.Launch
import proofs.«166050_j65000035058538_1_alg».proof.Proof.Gen.Kernel.Points
import proofs.«166050_j65000035058538_1_alg».proof.Proof.Gen.Kernel.Frame
import proofs.«166050_j65000035058538_1_alg».proof.Proof.Gen.KernelIdeal
import proofs.«166050_j65000035058538_1_alg».proof.Proof.Gen.KernelIdeal.Skeleton
import proofs.«166050_j65000035058538_1_alg».proof.Proof.Gen.KernelIdeal.Launch
import proofs.«166050_j65000035058538_1_alg».proof.Proof.Gen.KernelIdeal.Points
import proofs.«166050_j65000035058538_1_alg».proof.Proof.Gen.KernelIdeal.Frame
import proofs.«166050_j65000035058538_1_alg».proof.Proof.Gen.ReferenceIdeal
import proofs.«166050_j65000035058538_1_alg».proof.Proof.Gen.Pre_finite_inputs
import proofs.«166050_j65000035058538_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
